-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096x1 : Shape := ⟨3, ![4, 4096, 1]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4096x1 : S_.BroadcastsInDim S4x4096x1 (![] : Fin 0 → Fin S4x4096x1.rank)
  reducesTo_S4x4096x1_S_d0_1_2 : S4x4096x1.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S4x4096x1 .f32) (main_arg5 : FVec F S2048 .f32) (main_arg6 : FVec F S4x4096x2048 .f32) (main_v13 : IVec S_ 1) (main_v16 : IVec S4x4096x1 1) : IVec S_ 1 :=
  let main_c_5 : IVec S_ 1 := constantI S_ 1 1#1
  let main_v17 : IVec S_ 1 := (fun x v => Host.reduce IntOp.andi x v reducesTo_S4x4096x1_S_d0_1_2 h_S_) main_v16 main_c_5
  let main_v18 : IVec S_ 1 := andi main_v13 main_v17
  let main_v19 : FVec F S4x4096x1 .f32 := Host.absf main_arg4
  let main_cst_6 : FVec F S_ .f32 := constant S_ .f32 0x7F800000#32
  let main_v20 : FVec F S4x4096x1 .f32 := broadcastInDim S4x4096x1 ![] bcast_S_S4x4096x1 main_cst_6
  let main_v21 : IVec S4x4096x1 1 := cmpf .olt main_v19 main_v20
  let main_c_7 : IVec S_ 1 := constantI S_ 1 1#1
  let main_v22 : IVec S_ 1 := (fun x v => Host.reduce IntOp.andi x v reducesTo_S4x4096x1_S_d0_1_2 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4x4096x2048 .f32 := Host.absf main_arg6
  let main_cst_10 : FVec F S_ .f32 := constant S_ .f32 0x7F800000#32
  let main_v30 : FVec F S4x4096x2048 .f32 := broadcastInDim S4x4096x2048 ![] bcast_S_S4x4096x2048 main_cst_10
  let main_v31 : IVec S4x4096x2048 1 := cmpf .olt main_v29 main_v30
  let main_c_11 : IVec S_ 1 := constantI S_ 1 1#1
  let main_v32 : IVec S_ 1 := (fun x v => Host.reduce IntOp.andi x v reducesTo_S4x4096x2048_S_d0_1_2 h_S_) main_v31 main_c_11
  let main_v33 : IVec S_ 1 := andi main_v28 main_v32
  main_v33

def fn {F : FTy → Type} [FloatOps F] (main_arg0 : FVec F S4x4096x2048 .f32) (main_arg1 : FVec F S4x4096x2048 .f32) (main_arg2 : FVec F S4x4096x2048 .f32) (main_arg3 : FVec F S4x4096x1 .f32) (main_arg4 : FVec F S4x4096x1 .f32) (main_arg5 : FVec F S2048 .f32) (main_arg6 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S4x4096x2048 .f32 := Host.absf main_arg2
  let main_cst_2 : FVec F S_ .f32 := constant S_ .f32 0x7F800000#32
  let main_v10 : FVec F S4x4096x2048 .f32 := broadcastInDim S4x4096x2048 ![] bcast_S_S4x4096x2048 main_cst_2
  let main_v11 : IVec S4x4096x2048 1 := cmpf .olt main_v9 main_v10
  let main_c_3 : IVec S_ 1 := constantI S_ 1 1#1
  let main_v12 : IVec S_ 1 := (fun x v => Host.reduce IntOp.andi x v reducesTo_S4x4096x2048_S_d0_1_2 h_S_) main_v11 main_c_3
  let main_v13 : IVec S_ 1 := andi main_v8 main_v12
  let main_v14 : FVec F S4x4096x1 .f32 := Host.absf main_arg3
  let main_cst_4 : FVec F S_ .f32 := constant S_ .f32 0x7F800000#32
  let main_v15 : FVec F S4x4096x1 .f32 := broadcastInDim S4x4096x1 ![] bcast_S_S4x4096x1 main_cst_4
  let main_v16 : IVec S4x4096x1 1 := cmpf .olt main_v14 main_v15
  fn_part1 (F := F) main_arg4 main_arg5 main_arg6 main_v13 main_v16
-- ==== Kernel.lean ====
abbrev S4x4096x2048 : Shape := ⟨3, ![4, 4096, 2048]⟩
abbrev S4x4096x1 : Shape := ⟨3, ![4, 4096, 1]⟩
abbrev S2048 : Shape := ⟨1, ![2048]⟩
abbrev S16384x2048 : Shape := ⟨2, ![16384, 2048]⟩
abbrev S16384x1 : Shape := ⟨2, ![16384, 1]⟩
abbrev S256x2048 : Shape := ⟨2, ![256, 2048]⟩
abbrev S256x1 : Shape := ⟨2, ![256, 1]⟩
abbrev S1x2048 : Shape := ⟨2, ![1, 2048]⟩
abbrev S256 : Shape := ⟨1, ![256]⟩

abbrev nBuf : Space → Nat
  | .hbm => 17
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x1, .f32⟩
  | .hbm, ⟨4, _⟩ => ⟨S4x4096x1, .f32⟩
  | .hbm, ⟨5, _⟩ => ⟨S2048, .f32⟩
  | .hbm, ⟨6, _⟩ => ⟨S4x4096x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S2048, .f32⟩
  | .hbm, ⟨15, _⟩ => ⟨S2048, .f32⟩
  | .hbm, ⟨16, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S2048, .f32⟩
  | .local _ .vmem, ⟨16, _⟩ => ⟨S2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S4x4096x2048_S16384x2048 : S4x4096x2048.ShapeCasts S16384x2048
  shapeCasts_S4x4096x1_S16384x1 : S4x4096x1.ShapeCasts S16384x1
  inb_S2048_S2048_0 : ∀ a, (![0] : Fin 1 → Nat) a + S2048.size a ≤ S2048.size a
  h_S2048 : 0 < S2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S2048_S1x2048 : S2048.ShapeCasts S1x2048
  broadcasts_S1x2048_S256x2048 : S1x2048.Broadcasts S256x2048
  broadcasts_S256x1_S256x2048 : S256x1.Broadcasts S256x2048
  reduces_S256x2048_S256 : S256x2048.Reduces [1] S256
  shapeCasts_S256_S256x1 : S256.ShapeCasts S256x1
  reduces_S256x2048_S2048 : S256x2048.Reduces [0] S2048
  shapeCasts_S2048_S2048 : S2048.ShapeCasts S2048
  shapeCasts_S16384x2048_S4x4096x2048 : S16384x2048.ShapeCasts S4x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S16384x1.size a
  hwx0_4 : ∀ i : grid0.Coords, EltTy.bits .f32 = 32 ∨ (Rect.block (s := S16384x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x2048.size a
  hwx0_6 : ∀ i : grid0.Coords, EltTy.bits .f32 = 32 ∨ (Rect.block (s := S16384x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S16384x2048.size a
  hwx0_7 : ∀ i : grid0.Coords, EltTy.bits .f32 = 32 ∨ (Rect.block (s := S16384x2048) S256x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S2048.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S2048.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096x1 : Shape := ⟨3, ![4, 4096, 1]⟩
abbrev S2048 : Shape := ⟨1, ![2048]⟩
abbrev S1x1x2048 : Shape := ⟨3, ![1, 1, 2048]⟩
abbrev S_ : Shape := ⟨0, ![]⟩
abbrev S4x4096 : Shape := ⟨2, ![4, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x1, .f32⟩
  | .hbm, ⟨4, _⟩ => ⟨S4x4096x1, .f32⟩
  | .hbm, ⟨5, _⟩ => ⟨S2048, .f32⟩
  | .hbm, ⟨6, _⟩ => ⟨S4x4096x2048, .f32⟩
  | .hbm, ⟨7, _⟩ => ⟨S4x4096x2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S2048, .f32⟩
  | .hbm, ⟨57, _⟩ => ⟨S_, .f32⟩
  | .hbm, ⟨58, _⟩ => ⟨S2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  reducesTo_S4x4096x2048_S2048_d0_1 : S4x4096x2048.ReducesTo [0, 1] S2048

variable [Facts₀]

class Facts : Prop extends Facts₀ where

variable [Facts]
-- ==== Proof.Pieces.lean ====
/-
  What one grid point leaves in each of the three output blocks, as a value: the input gradient's block is the
  body's one store of it; each parameter gradient's accumulator is its update store, which at the first point reads
  back the zero stored just before it and at every later point reads what the point before left.
-/
import proofs.«161830_j60713657697040_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords)
  (arg1 : Memref sig .tc .vmem S256x2048 .f32) (harg1 : arg1.IsWhole) (arg2 : Memref sig .tc .vmem S256x2048 .f32) (harg2 : arg2.IsWhole)
  (arg3 : Memref sig .tc .vmem S256x2048 .f32) (harg3 : arg3.IsWhole) (arg4 : Memref sig .tc .vmem S256x1 .f32) (harg4 : arg4.IsWhole)
  (arg5 : Memref sig .tc .vmem S256x1 .f32) (harg5 : arg5.IsWhole) (arg6 : Memref sig .tc .vmem S2048 .f32) (harg6 : arg6.IsWhole)
  (arg7 : Memref sig .tc .vmem S256x2048 .f32) (harg7 : arg7.IsWhole) (arg8 : Memref sig .tc .vmem S256x2048 .f32) (harg8 : arg8.IsWhole)
  (arg9 : Memref sig .tc .vmem S2048 .f32) (harg9 : arg9.IsWhole) (arg10 : Memref sig .tc .vmem S2048 .f32) (harg10 : arg10.IsWhole)
  (x0 x1 x2 : Vec F S256x2048 .f32) (x3 x4 : Vec F S256x1 .f32) (x5 : Vec F S2048 .f32) (x6 : Vec F S256x2048 .f32)

/-- A later point's block of the input gradient: the one store's value, of the point's seven input blocks. -/
theorem gx_B (hc0 : ¬cond0_0 i) (xo8 xo9 : Vec F S2048 .f32) :
    out0_B_7 c i arg1 harg1 arg2 harg2 arg3 harg3 arg4 harg4 arg5 harg5 arg6 harg6 arg7 harg7 arg8 harg8 arg9 harg9 arg10 harg10 hc0 x0 x1 x2 x3 x4 x5 x6 xo8 xo9
      = k0_pay1 (k0_pay7 x3) (k0_pay8 x0 x5) (k0_pay9 x1 x2 x4) (k0_pay10 x0 x1 x2 x3 x4 x5) (k0_pay11 x1 x2 x4)
        (k0_pay12 x0 x3 x5) (k0_pay13 x0 x1 x2 x3 x4 x5) x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg9.read_unread, harg10.read_unread, View.ld_unit_zero (S := S256x2048) hz2,
    View.ld_unit_zero (S := S256x1) hz2, View.ld_unit_zero (S := S2048) hz1]

/-- The first point's block of the input gradient: the same store, of the same seven blocks. -/
theorem gx_A (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 x6
      = k0_pay1 (k0_pay7 x3) (k0_pay8 x0 x5) (k0_pay9 x1 x2 x4) (k0_pay10 x0 x1 x2 x3 x4 x5) (k0_pay11 x1 x2 x4)
        (k0_pay12 x0 x3 x5) (k0_pay13 x0 x1 x2 x3 x4 x5) x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg9.read_unread, harg10.read_unread, View.ld_unit_zero (S := S256x2048) hz2,
    View.ld_unit_zero (S := S256x1) hz2, View.ld_unit_zero (S := S2048) hz1]

/-- A later point's accumulator for the scale's gradient: the update over what the point before left. -/
theorem gamma_B (hc0 : ¬cond0_0 i) (xo8 xo9 : Vec F S2048 .f32) :
    out0_B_8 c i arg1 harg1 arg2 harg2 arg3 harg3 arg4 harg4 arg5 harg5 arg6 harg6 arg7 harg7 arg8 harg8 arg9 harg9 arg10 harg10 hc0 x0 x1 x2 x3 x4 x5 x6 xo8 xo9
      = k0_pay2 (k0_pay6 x0) (k0_pay7 x3) (k0_pay9 x1 x2 x4) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  sl_unfold_words
  rw [View.canon_unit_zero hz1]
  simp only [View.readAt_eq_ld, harg1.read_unread, harg2.read_unread, harg3.read_unread, harg4.read_unread, harg5.read_unread,
    harg6.read_unread, harg7.read_unread, harg9.read_unread, harg10.read_unread, View.ld_unit_zero (S := S256x2048) hz2,
    View.ld_unit_zero (S := S256x1) hz2, View.ld_unit_zero (S := S2048) hz1]

/-- A later point's accumulator for the shift's gradient: the update over what the point before left. -/
theorem beta_B (hc0 : ¬cond0_0 i) (xo8 xo9 : Vec F S2048 .f32) :
    out0_B_9 c i arg1 harg1 arg2 harg2 arg3 harg3 arg4 harg4 arg5 harg5 arg6 harg6 arg7 harg7 arg8 harg8 arg9 harg9 arg10 harg10 hc0 x0 x1 x2 x3 x4 x5 x6 xo8 xo9
      = k0_pay3 (k0_pay6 x0) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  sl_unfold_words
  rw [View.canon_unit_zero hz1]
  simp only [View.readAt_eq_ld, harg1.read_unread, harg2.read_unread, harg3.read_unread, harg4.read_unread, harg5.read_unread,
    harg6.read_unread, harg7.read_unread, harg9.read_unread, harg10.read_unread, View.ld_unit_zero (S := S256x2048) hz2,
    View.ld_unit_zero (S := S256x1) hz2, View.ld_unit_zero (S := S2048) hz1]

/-- The first point's accumulator for the scale's gradient: the update over the zero stored just before it. -/
theorem gamma_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6
      = k0_pay2 (k0_pay6 x0) (k0_pay7 x3) (k0_pay9 x1 x2 x4) (k0_pay4 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S2048) hz1, View.readCov_unit_zero (S := S2048) _ hz1]
  simp only [View.readAt_eq_ld, harg1.read_unread, harg2.read_unread, harg3.read_unread, harg4.read_unread, harg5.read_unread,
    harg6.read_unread, harg7.read_unread, View.ld_unit_zero (S := S256x2048) hz2,
    View.ld_unit_zero (S := S256x1) hz2, View.ld_unit_zero (S := S2048) hz1, View.readCov_unit_zero (S := S2048) _ hz1]

/-- The first point's accumulator for the shift's gradient: the update over the zero stored just before it. -/
theorem beta_A (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 x6
      = k0_pay3 (k0_pay6 x0) (k0_pay5 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S2048) hz1, View.readCov_unit_zero (S := S2048) _ hz1]
  simp only [View.readAt_eq_ld, harg1.read_unread, harg2.read_unread, harg3.read_unread, harg4.read_unread, harg5.read_unread,
    harg6.read_unread, harg7.read_unread, View.ld_unit_zero (S := S256x2048) hz2,
    View.ld_unit_zero (S := S256x1) hz2, View.ld_unit_zero (S := S2048) hz1, View.readCov_unit_zero (S := S2048) _ hz1]

end Cert.KernelIdeal.Pieces

end
-- ==== Proof.RowMath.lean ====
/-
  The mathematics of this certificate, with no program in sight: layer normalisation's backward pass over a
  feature axis of 2048, row by row, on the extended reals.

  For one row, with upstream gradient `dy`, input `x = x1 + x2`, the saved mean `mu` and reciprocal standard
  deviation `rs`, scale `ga` and a residual gradient `ds`:

    g k        = dy k · ga k                         the gradient reaching the normalised value
    c k        = (x1 k + x2 k) − mu                  the centred input
    gradVar    = Σₖ ((−½ · g k) · c k) · rs³         the gradient with respect to the variance
    gradMean   = Σₖ (−g k) · rs + (gradVar · (−2/d)) · Σₖ c k
    gradX h    = ((g h · rs + (gradVar · (2/d)) · c h) + gradMean · (1/d)) + ds h

  and the two parameter gradients sum over ALL rows: `Σ_rows (dy h · c h) · rs` and `Σ_rows dy h`.

  The three results are stated twice over the same row formulas: over arrays indexed (batch, position, feature),
  and over the same data laid out as 16384 rows, the row sum cut into 64 tiles of 256 rows. The scalars −½, −2/d,
  2/d and 1/d (d = 2048) stay the float words they are written as; no law below looks inside them.
-/
import Idealize.ShloMosaic.PureOps.Ideal
import Idealize.ShloMosaic.Lib.ValueIdx

noncomputable section

open scoped BigOperators

namespace LnBwd

open Idealize.ShloMosaic Idealize.ShloMosaic.ValueIdx

/-! ## The scalars -/

/-- −½. -/
abbrev negHalf : EReal := Ideal.ofBits .f32 0xBF000000#32
/-- −2/d = −2⁻¹⁰. -/
abbrev negTwoOverD : EReal := Ideal.ofBits .f32 0xBA800000#32
/-- 2/d = 2⁻¹⁰. -/
abbrev twoOverD : EReal := Ideal.ofBits .f32 0x3A800000#32
/-- 1/d = 2⁻¹¹. -/
abbrev oneOverD : EReal := Ideal.ofBits .f32 0x3A000000#32
/-- The float zero every sum starts from. -/
abbrev zeroWord : EReal := Ideal.ofBits .f32 0x00000000#32

/-! ## One row -/

section Row

variable (dy x1 x2 ds ga : Fin 2048 → EReal) (rs mu : EReal)

/-- The gradient reaching the normalised value: `dy · γ`. -/
def scaled (k : Fin 2048) : EReal := dy k * ga k

/-- The centred input `(x1 + x2) − mean`. -/
def centred (k : Fin 2048) : EReal := (x1 k + x2 k) - mu

/-- The gradient with respect to the row's variance. -/
def gradVar : EReal := ∑ k : Fin 2048, ((negHalf * scaled dy ga k) * centred x1 x2 mu k) * ((rs * rs) * rs)

/-- The sum of the centred row. -/
def sumCentred : EReal := ∑ k : Fin 2048, centred x1 x2 mu k

/-- `Σₖ (−g k) · rs`. -/
def sumNegScaled : EReal := ∑ k : Fin 2048, (-(scaled dy ga k)) * rs

/-- The gradient with respect to the row's mean. -/
def gradMean : EReal :=
  sumNegScaled dy ga rs + (gradVar dy x1 x2 ga rs mu * negTwoOverD) * sumCentred x1 x2 mu

/-- The gradient with respect to the input, at feature `h`. -/
def gradX (h : Fin 2048) : EReal :=
  ((scaled dy ga h * rs + (gradVar dy x1 x2 ga rs mu * twoOverD) * centred x1 x2 mu h)
    + gradMean dy x1 x2 ga rs mu * oneOverD) + ds h

/-- One row's addend to the scale's gradient, at feature `h`. -/
def gammaTerm (h : Fin 2048) : EReal := (dy h * centred x1 x2 mu h) * rs

end Row

/-! ## The arrays, indexed (batch, position, feature) -/

abbrev S3 : Shape := ⟨3, ![4, 4096, 2048]⟩
abbrev S3c : Shape := ⟨3, ![4, 4096, 1]⟩
abbrev S2 : Shape := ⟨2, ![16384, 2048]⟩
abbrev S2c : Shape := ⟨2, ![16384, 1]⟩
abbrev S1 : Shape := ⟨1, ![2048]⟩

/-- Row (b, s) of an array over (batch, position, feature). -/
def row3 (X : S3.Idx → EReal) (b : Fin 4) (s : Fin 4096) : Fin 2048 → EReal := fun k => X (ix3 b s k)
/-- Entry (b, s) of a per-row statistic kept with a trailing unit axis. -/
def stat3 (R : S3c.Idx → EReal) (b : Fin 4) (s : Fin 4096) : EReal := R (ix3 b s (0 : Fin 1))
/-- A feature vector as a function of the feature. -/
def lanes (g : S1.Idx → EReal) : Fin 2048 → EReal := fun k => g (ix1 k)

/-- The input gradient over (batch, position, feature). -/
def gradX3 (dy x1 x2 : S3.Idx → EReal) (rs mu : S3c.Idx → EReal) (ga : S1.Idx → EReal) (ds : S3.Idx → EReal) :
    S3.Idx → EReal := fun i =>
  gradX (row3 dy ⟨(i 0).val, (i 0).isLt⟩ ⟨(i 1).val, (i 1).isLt⟩) (row3 x1 ⟨(i 0).val, (i 0).isLt⟩ ⟨(i 1).val, (i 1).isLt⟩)
    (row3 x2 ⟨(i 0).val, (i 0).isLt⟩ ⟨(i 1).val, (i 1).isLt⟩) (row3 ds ⟨(i 0).val, (i 0).isLt⟩ ⟨(i 1).val, (i 1).isLt⟩) (lanes ga)
    (stat3 rs ⟨(i 0).val, (i 0).isLt⟩ ⟨(i 1).val, (i 1).isLt⟩) (stat3 mu ⟨(i 0).val, (i 0).isLt⟩ ⟨(i 1).val, (i 1).isLt⟩)
    ⟨(i 2).val, (i 2).isLt⟩

theorem gradX3_apply (dy x1 x2 : S3.Idx → EReal) (rs mu : S3c.Idx → EReal) (ga : S1.Idx → EReal) (ds : S3.Idx → EReal)
    (b : Fin 4) (s : Fin 4096) (h : Fin 2048) :
    gradX3 dy x1 x2 rs mu ga ds (ix3 b s h)
      = gradX (row3 dy b s) (row3 x1 b s) (row3 x2 b s) (row3 ds b s) (lanes ga) (stat3 rs b s) (stat3 mu b s) h := rfl

/-- The scale's gradient: the zero a sum starts from, plus the sum over every (batch, position). -/
def gradGamma3 (dy x1 x2 : S3.Idx → EReal) (rs mu : S3c.Idx → EReal) : S1.Idx → EReal := fun j =>
  zeroWord + ∑ b : Fin 4, ∑ s : Fin 4096,
    gammaTerm (row3 dy b s) (row3 x1 b s) (row3 x2 b s) (stat3 rs b s) (stat3 mu b s) ⟨(j 0).val, (j 0).isLt⟩

theorem gradGamma3_apply (dy x1 x2 : S3.Idx → EReal) (rs mu : S3c.Idx → EReal) (h : Fin 2048) :
    gradGamma3 dy x1 x2 rs mu (ix1 h) = zeroWord + ∑ b : Fin 4, ∑ s : Fin 4096,
      gammaTerm (row3 dy b s) (row3 x1 b s) (row3 x2 b s) (stat3 rs b s) (stat3 mu b s) h := rfl

/-- The shift's gradient: the upstream gradient summed over every (batch, position). -/
def gradBeta3 (dy : S3.Idx → EReal) : S1.Idx → EReal := fun j =>
  zeroWord + ∑ b : Fin 4, ∑ s : Fin 4096, row3 dy b s ⟨(j 0).val, (j 0).isLt⟩

theorem gradBeta3_apply (dy : S3.Idx → EReal) (h : Fin 2048) :
    gradBeta3 dy (ix1 h) = zeroWord + ∑ b : Fin 4, ∑ s : Fin 4096, row3 dy b s h := rfl

/-! ## The same data as 16384 rows, the rows in 64 tiles of 256 -/

/-- Row `r` of an array over (row, feature). -/
def row2 (X : S2.Idx → EReal) (r : Fin 16384) : Fin 2048 → EReal := fun k => X (ix2 r k)
/-- Entry `r` of a per-row statistic kept with a trailing unit axis. -/
def stat2 (R : S2c.Idx → EReal) (r : Fin 16384) : EReal := R (ix2 r (0 : Fin 1))
/-- Row `q` of tile `t`. -/
def tileRow (t : Fin 64) (q : Fin 256) : Fin 16384 := ⟨256 * t.val + q.val, by have := t.isLt; have := q.isLt; omega⟩

/-- The input gradient over (row, feature). -/
def gradX2 (dy x1 x2 : S2.Idx → EReal) (rs mu : S2c.Idx → EReal) (ga : S1.Idx → EReal) (ds : S2.Idx → EReal) :
    S2.Idx → EReal := fun i =>
  gradX (row2 dy ⟨(i 0).val, (i 0).isLt⟩) (row2 x1 ⟨(i 0).val, (i 0).isLt⟩) (row2 x2 ⟨(i 0).val, (i 0).isLt⟩)
    (row2 ds ⟨(i 0).val, (i 0).isLt⟩) (lanes ga) (stat2 rs ⟨(i 0).val, (i 0).isLt⟩) (stat2 mu ⟨(i 0).val, (i 0).isLt⟩)
    ⟨(i 1).val, (i 1).isLt⟩

theorem gradX2_apply (dy x1 x2 : S2.Idx → EReal) (rs mu : S2c.Idx → EReal) (ga : S1.Idx → EReal) (ds : S2.Idx → EReal)
    (r : Fin 16384) (h : Fin 2048) :
    gradX2 dy x1 x2 rs mu ga ds (ix2 r h)
      = gradX (row2 dy r) (row2 x1 r) (row2 x2 r) (row2 ds r) (lanes ga) (stat2 rs r) (stat2 mu r) h := rfl

/-- One tile's addend to the scale's gradient: its 256 rows' terms summed. -/
def gammaTile (dy x1 x2 : S2.Idx → EReal) (rs mu : S2c.Idx → EReal) (t : Fin 64) (h : Fin 2048) : EReal :=
  ∑ q : Fin 256, gammaTerm (row2 dy (tileRow t q)) (row2 x1 (tileRow t q)) (row2 x2 (tileRow t q))
    (stat2 rs (tileRow t q)) (stat2 mu (tileRow t q)) h

/-- One tile's addend to the shift's gradient. -/
def betaTile (dy : S2.Idx → EReal) (t : Fin 64) (h : Fin 2048) : EReal := ∑ q : Fin 256, row2 dy (tileRow t q) h

/-- The scale's gradient, tile by tile. -/
def gradGamma2 (dy x1 x2 : S2.Idx → EReal) (rs mu : S2c.Idx → EReal) : S1.Idx → EReal := fun j =>
  zeroWord + ∑ t : Fin 64, gammaTile dy x1 x2 rs mu t ⟨(j 0).val, (j 0).isLt⟩

theorem gradGamma2_apply (dy x1 x2 : S2.Idx → EReal) (rs mu : S2c.Idx → EReal) (h : Fin 2048) :
    gradGamma2 dy x1 x2 rs mu (ix1 h) = zeroWord + ∑ t : Fin 64, gammaTile dy x1 x2 rs mu t h := rfl

/-- The shift's gradient, tile by tile. -/
def gradBeta2 (dy : S2.Idx → EReal) : S1.Idx → EReal := fun j =>
  zeroWord + ∑ t : Fin 64, betaTile dy t ⟨(j 0).val, (j 0).isLt⟩

theorem gradBeta2_apply (dy : S2.Idx → EReal) (h : Fin 2048) :
    gradBeta2 dy (ix1 h) = zeroWord + ∑ t : Fin 64, betaTile dy t h := rfl

/-! ## A sum over a·b rows is the sum over a tiles of b rows -/

/-- Rows `0 … a·b − 1` are the rows `b·t + q` of tiles `t < a`, `q < b`, each once. -/
theorem sum_tiles {M : Type*} [AddCommMonoid M] (a b : ℕ) (φ : Fin (a * b) → M) :
    ∑ r : Fin (a * b), φ r
      = ∑ t : Fin a, ∑ q : Fin b, φ ⟨b * t.val + q.val, by
          have := t.isLt; have := q.isLt
          calc b * t.val + q.val < b * t.val + b := by omega
            _ = b * (t.val + 1) := by ring
            _ ≤ b * a := Nat.mul_le_mul_left b (by omega)
            _ = a * b := Nat.mul_comm b a⟩ := by
  rw [← Equiv.sum_comp finProdFinEquiv φ, Fintype.sum_prod_type]
  refine Finset.sum_congr rfl fun t _ => Finset.sum_congr rfl fun q _ => congrArg φ (Fin.ext ?_)
  show q.val + b * t.val = b * t.val + q.val
  omega

/-- 16384 rows as 64 tiles of 256 and as 4 batches of 4096: the same sum. -/
theorem sum_tiles_eq_sum_batches {M : Type*} [AddCommMonoid M] (φ : Fin 16384 → M) :
    ∑ t : Fin 64, ∑ q : Fin 256, φ (tileRow t q)
      = ∑ b : Fin 4, ∑ s : Fin 4096, φ ⟨4096 * b.val + s.val, by have := b.isLt; have := s.isLt; omega⟩ := by
  have h1 := sum_tiles 64 256 (fun r : Fin (64 * 256) => φ ⟨r.val, r.isLt⟩)
  have h2 := sum_tiles 4 4096 (fun r : Fin (4 * 4096) => φ ⟨r.val, r.isLt⟩)
  have e : (∑ r : Fin (64 * 256), φ ⟨r.val, r.isLt⟩) = ∑ r : Fin (4 * 4096), φ ⟨r.val, r.isLt⟩ := rfl
  exact h1.symm.trans (e.trans h2)

end LnBwd

end
-- ==== Proof.LibKeepdims.lean ====
/-
  Two layout facts about a COLUMN kept with a trailing unit axis, the shape a sum along the rows is kept in when it
  is to be broadcast back over them (`keepdims`): giving a vector of length `a` a trailing unit axis changes no
  entry, and broadcasting a column `[a, 1]` to `[a, b]` repeats each row's entry along the row. Any extents, any
  element type.
-/
import Idealize.ShloMosaic.Lib.Pipeline.Value
import Idealize.ShloMosaic.Lib.ValueIdx

noncomputable section

namespace KeepdimsLayout

open Idealize.ShloMosaic Idealize.ShloMosaic.ValueIdx

variable {α : Type}

/-- A vector of length `a` given a trailing unit axis reads, at `(i, u)`, the vector at `i`: the two row-major
    positions are `i` and `i · 1 + u` with `u = 0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.Payload.lean ====
/-
  What one grid point computes, read at an entry on the extended reals: over a tile of 256 rows the stored block
  of the input gradient is the row formula of RowMath at each row; the scale's accumulator gains the tile's 256
  terms summed down the rows, the shift's the tile's upstream gradients summed down the rows. A lane sum is a
  plain sum; `0 − g` is `−g`; a column kept with a unit axis broadcasts along the row.
-/
import proofs.«161830_j60713657697040_1_alg».proof.Proof.Gen.KernelIdeal.Skeleton
import proofs.«161830_j60713657697040_1_alg».proof.Proof.RowMath
import proofs.«161830_j60713657697040_1_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx KeepdimsLayout

/-! ## Lane sums: a reduction over one axis of a 256 × 2048 block is the plain sum along that axis -/

/-- Summed along the row: at row `q`, the sum over the 2048 features. -/
private theorem rowSum_apply (src : FVec Ideal S256x2048 .f32) (hr : S256x2048.Reduces [1] S256) (hφ : FKind.Formats .f32)
    (hacc : (0x00000000#32 : BitVec 32) = FKind.add.neutral .f32 hφ) (q : Fin 256) :
    multiReduction .add [1] S256 src 0x00000000#32 hr hφ hacc (ix1 q) = ∑ k : Fin 2048, src (ix2 q k) :=
  (Ideal.multiReduction_add_single src _ hr hφ hacc (ix1 q)).trans
    (Finset.sum_congr rfl fun k _ => congrArg src (funext fun a => Fin.ext (by
      match a with
      | ⟨0, _⟩ => rfl
      | ⟨1, _⟩ => rfl)))

/-- Summed down the rows: at feature `c`, the sum over the 256 rows. -/
private theorem colSum_apply (src : FVec Ideal S256x2048 .f32) (hr : S256x2048.Reduces [0] S2048) (hφ : FKind.Formats .f32)
    (hacc : (0x00000000#32 : BitVec 32) = FKind.add.neutral .f32 hφ) (c : Fin 2048) :
    multiReduction .add [0] S2048 src 0x00000000#32 hr hφ hacc (ix1 c) = ∑ q : Fin 256, src (ix2 q c) :=
  (Ideal.multiReduction_add_single src _ hr hφ hacc (ix1 c)).trans
    (Finset.sum_congr rfl fun q _ => congrArg src (funext fun a => Fin.ext (by
      match a with
      | ⟨0, _⟩ => rfl
      | ⟨1, _⟩ => rfl)))

/-! ## The payloads at an entry -/

/-- A cast of a block to its own shape is the block. -/
private theorem pay6_eq (x : FVec Ideal S256x2048 .f32) : k0_pay6 x = x := shapeCast_self x _
private theorem pay7_eq (x : FVec Ideal S256x1 .f32) : k0_pay7 x = x := shapeCast_self x _

/-- The upstream gradient times the scale, the scale's vector spread over the rows. -/
private theorem pay8_apply (x0 : FVec Ideal S256x2048 .f32) (x5 : FVec Ideal S2048 .f32) (q : Fin 256) (k : Fin 2048) :
    k0_pay8 (F := Ideal) x0 x5 (ix2 q k) = LnBwd.scaled (fun k => x0 (ix2 q k)) (fun k => x5 (ix1 k)) k := by
  show k0_pay6 x0 (ix2 q k)
      * broadcastTo S256x2048 (shapeCast S1x2048 x5 shapeCasts_S2048_S1x2048) broadcasts_S1x2048_S256x2048 (ix2 q k)
    = x0 (ix2 q k) * x5 (ix1 k)
  rw [pay6_eq, broadcastTo_1b_ab_apply, shapeCast_a_1a_apply]

/-- The two halves of the input added, less the row's mean. -/
private theorem pay9_apply (x1 x2 : FVec Ideal S256x2048 .f32) (x4 : FVec Ideal S256x1 .f32) (q : Fin 256) (k : Fin 2048) :
    k0_pay9 (F := Ideal) x1 x2 x4 (ix2 q k)
      = LnBwd.centred (fun k => x1 (ix2 q k)) (fun k => x2 (ix2 q k)) (x4 (ix2 q (0 : Fin 1))) k := by
  show (shapeCast S256x2048 x1 shapeCasts_S256x2048_S256x2048 (ix2 q k)
        + shapeCast S256x2048 x2 shapeCasts_S256x2048_S256x2048 (ix2 q k))
      - broadcastTo S256x2048 (shapeCast S256x1 x4 shapeCasts_S256x1_S256x1) broadcasts_S256x1_S256x2048 (ix2 q k)
    = (x1 (ix2 q k) + x2 (ix2 q k)) - x4 (ix2 q (0 : Fin 1))
  rw [broadcastTo_a1_ab_apply, shapeCast_self, shapeCast_self, shapeCast_self]

/-- The variance's gradient of row `q`: the lane sum of `((−½ · g) · c) · rs³`, kept as a column. -/
private theorem pay10_apply (x0 x1 x2 : FVec Ideal S256x2048 .f32) (x3 x4 : FVec Ideal S256x1 .f32)
    (x5 : FVec Ideal S2048 .f32) (q : Fin 256) :
    k0_pay10 (F := Ideal) x0 x1 x2 x3 x4 x5 (ix2 q (0 : Fin 1))
      = LnBwd.gradVar (fun k => x0 (ix2 q k)) (fun k => x1 (ix2 q k)) (fun k => x2 (ix2 q k)) (fun k => x5 (ix1 k))
          (x3 (ix2 q (0 : Fin 1))) (x4 (ix2 q (0 : Fin 1))) := by
  unfold k0_pay10
  refine (shapeCast_a_a1_apply _ _ q 0).trans ?_
  refine (rowSum_apply _ _ _ _ q).trans ?_
  unfold LnBwd.gradVar
  refine Finset.sum_congr rfl fun k _ => ?_
  show ((LnBwd.negHalf * k0_pay8 (F := Ideal) x0 x5 (ix2 q k)) * k0_pay9 (F := Ideal) x1 x2 x4 (ix2 q k))
      * broadcastTo S256x2048 (mulf (mulf (k0_pay7 (F := Ideal) x3) (k0_pay7 x3)) (k0_pay7 x3)) broadcasts_S256x1_S256x2048 (ix2 q k)
    = _
  rw [broadcastTo_a1_ab_apply, pay8_apply, pay9_apply, pay7_eq]
  rfl

/-- The sum of the centred row `q`, kept as a column. -/
private theorem pay11_apply (x1 x2 : FVec Ideal S256x2048 .f32) (x4 : FVec Ideal S256x1 .f32) (q : Fin 256) :
    k0_pay11 (F := Ideal) x1 x2 x4 (ix2 q (0 : Fin 1))
      = LnBwd.sumCentred (fun k => x1 (ix2 q k)) (fun k => x2 (ix2 q k)) (x4 (ix2 q (0 : Fin 1))) := by
  unfold k0_pay11
  refine (shapeCast_a_a1_apply _ _ q 0).trans ?_
  refine (rowSum_apply _ _ _ _ q).trans ?_
  unfold LnBwd.sumCentred
  exact Finset.sum_congr rfl fun k _ => pay9_apply x1 x2 x4 q k

/-- On the extended reals the float zero less `g` is `−g`. -/
private theorem zeroWord_sub (g : EReal) : Ideal.ofBits .f32 0x00000000#32 - g = -g := by
  rw [Ideal.ofBits_zero_f32, sub_eq_add_neg, zero_add]

/-- The lane sum of `(0 − g) · rs` of row `q`, kept as a column. -/
private theorem pay12_apply (x0 : FVec Ideal S256x2048 .f32) (x3 : FVec Ideal S256x1 .f32) (x5 : FVec Ideal S2048 .f32)
    (q : Fin 256) :
    k0_pay12 (F := Ideal) x0 x3 x5 (ix2 q (0 : Fin 1))
      = LnBwd.sumNegScaled (fun k => x0 (ix2 q k)) (fun k => x5 (ix1 k)) (x3 (ix2 q (0 : Fin 1))) := by
  unfold k0_pay12
  refine (shapeCast_a_a1_apply _ _ q 0).trans ?_
  refine (rowSum_apply _ _ _ _ q).trans ?_
  unfold LnBwd.sumNegScaled
  refine Finset.sum_congr rfl fun k _ => ?_
  show (Ideal.ofBits .f32 0x00000000#32 - k0_pay8 (F := Ideal) x0 x5 (ix2 q k))
      * broadcastTo S256x2048 (k0_pay7 (F := Ideal) x3) broadcasts_S256x1_S256x2048 (ix2 q k)
    = _
  rw [broadcastTo_a1_ab_apply, pay8_apply, pay7_eq, zeroWord_sub]

/-- The variance's gradient times `−2/d`. -/
private theorem pay13_apply (x0 x1 x2 : FVec Ideal S256x2048 .f32) (x3 x4 : FVec Ideal S256x1 .f32)
    (x5 : FVec Ideal S2048 .f32) (q : Fin 256) :
    k0_pay13 (F := Ideal) x0 x1 x2 x3 x4 x5 (ix2 q (0 : Fin 1))
      = LnBwd.gradVar (fun k => x0 (ix2 q k)) (fun k => x1 (ix2 q k)) (fun k => x2 (ix2 q k)) (fun k => x5 (ix1 k))
          (x3 (ix2 q (0 : Fin 1))) (x4 (ix2 q (0 : Fin 1))) * LnBwd.negTwoOverD :=
  congrArg (· * LnBwd.negTwoOverD) (pay10_apply x0 x1 x2 x3 x4 x5 q)

/-- The first store's payload over any operands: the pointwise operations read through, each kept column read at its
    row, the residual gradient's cast dropped. -/
private theorem pay1_apply (v11 : FVec Ideal S256x1 .f32) (v17 v19 : FVec Ideal S256x2048 .f32)
    (v28 v30 v36 v38 : FVec Ideal S256x1 .f32) (v52 : FVec Ideal S256x2048 .f32) (q : Fin 256) (h : Fin 2048) :
    k0_pay1 (F := Ideal) v11 v17 v19 v28 v30 v36 v38 v52 (ix2 q h)
      = ((v17 (ix2 q h) * v11 (ix2 q (0 : Fin 1))
            + (v28 (ix2 q (0 : Fin 1)) * LnBwd.twoOverD) * v19 (ix2 q h))
          + (v36 (ix2 q (0 : Fin 1)) + v38 (ix2 q (0 : Fin 1)) * v30 (ix2 q (0 : Fin 1))) * LnBwd.oneOverD)
        + v52 (ix2 q h) := by
  show ((v17 (ix2 q h) * broadcastTo S256x2048 v11 broadcasts_S256x1_S256x2048 (ix2 q h)
          + broadcastTo S256x2048 (mulf v28 (broadcast S256x1 (Scalar.ofBits (F := Ideal) .f32 0x3A800000#32)))
              broadcasts_S256x1_S256x2048 (ix2 q h) * v19 (ix2 q h))
        + broadcastTo S256x2048
            (mulf (addf v36 (mulf v38 v30)) (broadcast S256x1 (Scalar.ofBits (F := Ideal) .f32 0x3A000000#32)))
            broadcasts_S256x1_S256x2048 (ix2 q h))
      + shapeCast S256x2048 v52 shapeCasts_S256x2048_S256x2048 (ix2 q h)
    = _
  rw [broadcastTo_a1_ab_apply, broadcastTo_a1_ab_apply, broadcastTo_a1_ab_apply, shapeCast_self]
  rfl

/-- The second store's payload over any operands: the accumulator plus the sum down the rows. -/
private theorem pay2_apply (v4 : FVec Ideal S256x2048 .f32) (v11 : FVec Ideal S256x1 .f32) (v19 : FVec Ideal S256x2048 .f32)
    (v61 : FVec Ideal S2048 .f32) (h : Fin 2048) :
    k0_pay2 (F := Ideal) v4 v11 v19 v61 (ix1 h)
      = v61 (ix1 h) + ∑ q : Fin 256, (v4 (ix2 q h) * v19 (ix2 q h)) * v11 (ix2 q (0 : Fin 1)) := by
  refine congrArg₂ (· + ·) (congrFun (shapeCast_self v61 _) (ix1 h))
    ((colSum_apply _ _ _ _ h).trans (Finset.sum_congr rfl fun q _ => ?_))
  exact congrArg (v4 (ix2 q h) * v19 (ix2 q h) * ·) (broadcastTo_a1_ab_apply v11 _ q h)

/-- The third store's payload over any operands. -/
private theorem pay3_apply (v4 : FVec Ideal S256x2048 .f32) (v65 : FVec Ideal S2048 .f32) (h : Fin 2048) :
    k0_pay3 (F := Ideal) v4 v65 (ix1 h) = v65 (ix1 h) + ∑ q : Fin 256, v4 (ix2 q h) :=
  congrArg₂ (· + ·) (congrFun (shapeCast_self v65 _) (ix1 h)) (colSum_apply _ _ _ _ h)

/-! ## The three stores -/

/-- The stored block of the input gradient at row `q`, feature `h`. -/
theorem gradX_apply (x0 x1 x2 x6 : FVec Ideal S256x2048 .f32) (x3 x4 : FVec Ideal S256x1 .f32) (x5 : FVec Ideal S2048 .f32)
    (q : Fin 256) (h : Fin 2048) :
    k0_pay1 (F := Ideal) (k0_pay7 x3) (k0_pay8 x0 x5) (k0_pay9 x1 x2 x4) (k0_pay10 x0 x1 x2 x3 x4 x5) (k0_pay11 x1 x2 x4)
        (k0_pay12 x0 x3 x5) (k0_pay13 x0 x1 x2 x3 x4 x5) x6 (ix2 q h)
      = LnBwd.gradX (fun k => x0 (ix2 q k)) (fun k => x1 (ix2 q k)) (fun k => x2 (ix2 q k)) (fun k => x6 (ix2 q k))
          (fun k => x5 (ix1 k)) (x3 (ix2 q (0 : Fin 1))) (x4 (ix2 q (0 : Fin 1))) h := by
  refine (pay1_apply _ _ _ _ _ _ _ _ q h).trans ?_
  rw [pay7_eq, pay8_apply, pay9_apply, pay10_apply, pay11_apply, pay12_apply, pay13_apply]
  rfl

/-- The scale's accumulator after the point: what it held plus the tile's terms summed down the rows. -/
theorem gamma_apply (x0 x1 x2 : FVec Ideal S256x2048 .f32) (x3 x4 : FVec Ideal S256x1 .f32) (acc : FVec Ideal S2048 .f32)
    (h : Fin 2048) :
    k0_pay2 (k0_pay6 x0) (k0_pay7 x3) (k0_pay9 x1 x2 x4) acc (ix1 h)
      = acc (ix1 h) + ∑ q : Fin 256, LnBwd.gammaTerm (fun k => x0 (ix2 q k)) (fun k => x1 (ix2 q k)) (fun k => x2 (ix2 q k))
          (x3 (ix2 q (0 : Fin 1))) (x4 (ix2 q (0 : Fin 1))) h := by
  refine (pay2_apply _ _ _ _ h).trans (congrArg (acc (ix1 h) + ·) (Finset.sum_congr rfl fun q _ => ?_))
  rw [pay6_eq, pay7_eq, pay9_apply]
  rfl

/-- The shift's accumulator after the point: what it held plus the tile's upstream gradients summed down the rows. -/
theorem beta_apply (x0 : FVec Ideal S256x2048 .f32) (acc : FVec Ideal S2048 .f32) (h : Fin 2048) :
    k0_pay3 (k0_pay6 x0) acc (ix1 h) = acc (ix1 h) + ∑ q : Fin 256, x0 (ix2 q h) := by
  rw [pay3_apply, pay6_eq]

/-- The reset value of either accumulator: the float zero at every feature. -/
theorem reset4_apply (h : Fin 2048) : (k0_pay4 (F := Ideal)) (ix1 h) = LnBwd.zeroWord := rfl
theorem reset5_apply (h : Fin 2048) : (k0_pay5 (F := Ideal)) (ix1 h) = LnBwd.zeroWord := rfl

end Cert.KernelIdeal.Payload

end
-- ==== Proof.Blocks.lean ====
/-
  The data one grid point sees. The seven inputs reach the kernel as arrays of 16384 rows (each a reshape of an
  argument; the scale vector as it is), cut into 64 tiles of 256 rows: entry (q, k) of a window's block at point
  `t` is entry (256·t + q, k) of its array, and the scale's one block is the whole vector at every point.
-/
import proofs.«161830_j60713657697040_1_alg».proof.Proof.Gen.KernelIdeal.Frame
import proofs.«161830_j60713657697040_1_alg».proof.Proof.RowMath
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The grid has 64 points. -/
theorem lt64 (t : Fin cfg0.N) : t.val < 64 := lt_of_lt_of_eq t.isLt (show cfg0.N = 64 from N_0)

/-- Point `t` as a tile number. -/
abbrev tile (t : Fin cfg0.N) : Fin 64 := ⟨t.val, lt64 t⟩

/-! ## The arrays the region finds, and the blocks a point is given -/

/-- The array window 0 is cut from. -/
abbrev dyRows (c : Dev nD) : Vec F S16384x2048 .f32 := V m c main_v0
/-- Window 0's block at point `t`. -/
abbrev dyBlk (c : Dev nD) (t : Fin cfg0.N) : Vec F S256x2048 .f32 := iblk m c 0 t

/-- The array window 1 is cut from. -/
abbrev x1Rows (c : Dev nD) : Vec F S16384x2048 .f32 := V m c main_v1
/-- Window 1's block at point `t`. -/
abbrev x1Blk (c : Dev nD) (t : Fin cfg0.N) : Vec F S256x2048 .f32 := iblk m c 1 t

/-- The array window 2 is cut from. -/
abbrev x2Rows (c : Dev nD) : Vec F S16384x2048 .f32 := V m c main_v2
/-- Window 2's block at point `t`. -/
abbrev x2Blk (c : Dev nD) (t : Fin cfg0.N) : Vec F S256x2048 .f32 := iblk m c 2 t

/-- The array window 3 is cut from. -/
abbrev rsRows (c : Dev nD) : Vec F S16384x1 .f32 := V m c main_v4
/-- Window 3's block at point `t`. -/
abbrev rsBlk (c : Dev nD) (t : Fin cfg0.N) : Vec F S256x1 .f32 := iblk m c 3 t

/-- The array window 4 is cut from. -/
abbrev muRows (c : Dev nD) : Vec F S16384x1 .f32 := V m c main_v5
/-- Window 4's block at point `t`. -/
abbrev muBlk (c : Dev nD) (t : Fin cfg0.N) : Vec F S256x1 .f32 := iblk m c 4 t

/-- The array window 6 is cut from. -/
abbrev dsRows (c : Dev nD) : Vec F S16384x2048 .f32 := V m c main_v3
/-- Window 6's block at point `t`. -/
abbrev dsBlk (c : Dev nD) (t : Fin cfg0.N) : Vec F S256x2048 .f32 := iblk m c 6 t

/-- The scale vector, which no host operation touches. -/
abbrev gaVec (c : Dev nD) : Vec F S2048 .f32 := V m c main_arg5
/-- Its block at point `t`. -/
abbrev gaBlk (c : Dev nD) (t : Fin cfg0.N) : Vec F S2048 .f32 := iblk m c 5 t

/-! ## Where the blocks lie: decided once over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem idx5 : ∀ t : Fin cfg0.N, win0_5.index t (0 : Fin 1) = 0 :=
  (by decide +kernel : ∀ t : Fin grid0.N, win0_5.index t (0 : Fin 1) = 0)

/-! ## A block's entry is its array's entry -/

/-- Row `q` of window 0's block at point `t` is row `256·t + q` of its array. -/
theorem dyBlk_apply (c : Dev nD) (t : Fin cfg0.N) (q : Fin 256) (k : Fin 2048) :
    dyBlk m c t (ix2 q k) = dyRows m c (ix2 (LnBwd.tileRow (tile t) q) k) := by
  show iblk m c 0 t (ix2 q k) = V m c main_v0 (ix2 (LnBwd.tileRow (tile t) q) k)
  unfold iblk
  rw [View.read_apply]
  refine congrArg (V m c main_v0) (funext fun a => Fin.ext ?_)
  match a with
  | ⟨0, _⟩ => show win0_0.index t 0 * 256 + 1 * q.val = 256 * t.val + q.val; rw [(idx0 t).1]; omega
  | ⟨1, _⟩ => show win0_0.index t 1 * 2048 + 1 * k.val = k.val; rw [(idx0 t).2]; omega

/-- Row `q` of window 1's block at point `t` is row `256·t + q` of its array. -/
theorem x1Blk_apply (c : Dev nD) (t : Fin cfg0.N) (q : Fin 256) (k : Fin 2048) :
    x1Blk m c t (ix2 q k) = x1Rows m c (ix2 (LnBwd.tileRow (tile t) q) k) := by
  show iblk m c 1 t (ix2 q k) = V m c main_v1 (ix2 (LnBwd.tileRow (tile t) q) k)
  unfold iblk
  rw [View.read_apply]
  refine congrArg (V m c main_v1) (funext fun a => Fin.ext ?_)
  match a with
  | ⟨0, _⟩ => show win0_1.index t 0 * 256 + 1 * q.val = 256 * t.val + q.val; rw [(idx1 t).1]; omega
  | ⟨1, _⟩ => show win0_1.index t 1 * 2048 + 1 * k.val = k.val; rw [(idx1 t).2]; omega

/-- Row `q` of window 2's block at point `t` is row `256·t + q` of its array. -/
theorem x2Blk_apply (c : Dev nD) (t : Fin cfg0.N) (q : Fin 256) (k : Fin 2048) :
    x2Blk m c t (ix2 q k) = x2Rows m c (ix2 (LnBwd.tileRow (tile t) q) k) := by
  show iblk m c 2 t (ix2 q k) = V m c main_v2 (ix2 (LnBwd.tileRow (tile t) q) k)
  unfold iblk
  rw [View.read_apply]
  refine congrArg (V m c main_v2) (funext fun a => Fin.ext ?_)
  match a with
  | ⟨0, _⟩ => show win0_2.index t 0 * 256 + 1 * q.val = 256 * t.val + q.val; rw [(idx2 t).1]; omega
  | ⟨1, _⟩ => show win0_2.index t 1 * 2048 + 1 * k.val = k.val; rw [(idx2 t).2]; omega

/-- Row `q` of window 3's block at point `t` is row `256·t + q` of its array. -/
theorem rsBlk_apply (c : Dev nD) (t : Fin cfg0.N) (q : Fin 256) (k : Fin 1) :
    rsBlk m c t (ix2 q k) = rsRows m c (ix2 (LnBwd.tileRow (tile t) q) k) := by
  show iblk m c 3 t (ix2 q k) = V m c main_v4 (ix2 (LnBwd.tileRow (tile t) q) k)
  unfold iblk
  rw [View.read_apply]
  refine congrArg (V m c main_v4) (funext fun a => Fin.ext ?_)
  match a with
  | ⟨0, _⟩ => show win0_3.index t 0 * 256 + 1 * q.val = 256 * t.val + q.val; rw [(idx3 t).1]; omega
  | ⟨1, _⟩ => show win0_3.index t 1 * 1 + 1 * k.val = k.val; rw [(idx3 t).2]; omega

/-- Row `q` of window 4's block at point `t` is row `256·t + q` of its array. -/
theorem muBlk_apply (c : Dev nD) (t : Fin cfg0.N) (q : Fin 256) (k : Fin 1) :
    muBlk m c t (ix2 q k) = muRows m c (ix2 (LnBwd.tileRow (tile t) q) k) := by
  show iblk m c 4 t (ix2 q k) = V m c main_v5 (ix2 (LnBwd.tileRow (tile t) q) k)
  unfold iblk
  rw [View.read_apply]
  refine congrArg (V m c main_v5) (funext fun a => Fin.ext ?_)
  match a with
  | ⟨0, _⟩ => show win0_4.index t 0 * 256 + 1 * q.val = 256 * t.val + q.val; rw [(idx4 t).1]; omega
  | ⟨1, _⟩ => show win0_4.index t 1 * 1 + 1 * k.val = k.val; rw [(idx4 t).2]; omega

/-- Row `q` of window 6's block at point `t` is row `256·t + q` of its array. -/
theorem dsBlk_apply (c : Dev nD) (t : Fin cfg0.N) (q : Fin 256) (k : Fin 2048) :
    dsBlk m c t (ix2 q k) = dsRows m c (ix2 (LnBwd.tileRow (tile t) q) k) := by
  show iblk m c 6 t (ix2 q k) = V m c main_v3 (ix2 (LnBwd.tileRow (tile t) q) k)
  unfold iblk
  rw [View.read_apply]
  refine congrArg (V m c main_v3) (funext fun a => Fin.ext ?_)
  match a with
  | ⟨0, _⟩ => show win0_6.index t 0 * 256 + 1 * q.val = 256 * t.val + q.val; rw [(idx6 t).1]; omega
  | ⟨1, _⟩ => show win0_6.index t 1 * 2048 + 1 * k.val = k.val; rw [(idx6 t).2]; omega

/-- The scale's block is the whole vector. -/
theorem gaBlk_apply (c : Dev nD) (t : Fin cfg0.N) (k : Fin 2048) : gaBlk m c t (ix1 k) = gaVec m c (ix1 k) := by
  show iblk m c 5 t (ix1 k) = V m c main_arg5 (ix1 k)
  unfold iblk
  rw [View.read_apply]
  refine congrArg (V m c main_arg5) (funext fun a => Fin.ext ?_)
  match a with
  | ⟨0, _⟩ => show win0_5.index t 0 * 2048 + 1 * k.val = k.val; rw [idx5 t]; omega

/-! ## The arrays are the arguments, reshaped -/

theorem dyRows_eq (c : Dev nD) :
    dyRows m c = shapeCast S16384x2048 (m ((c : Thread nD τ).loc main_arg0)) shapeCasts_S4x4096x2048_S16384x2048 := by
  show StableHlo.after hostOps0 (fun b => m (c, b)) (Proc.devRef .tc main_v0) = _
  after_results
  rfl

theorem x1Rows_eq (c : Dev nD) :
    x1Rows m c = shapeCast S16384x2048 (m ((c : Thread nD τ).loc main_arg1)) shapeCasts_S4x4096x2048_S16384x2048 := by
  show StableHlo.after hostOps0 (fun b => m (c, b)) (Proc.devRef .tc main_v1) = _
  after_results
  rfl

theorem x2Rows_eq (c : Dev nD) :
    x2Rows m c = shapeCast S16384x2048 (m ((c : Thread nD τ).loc main_arg2)) shapeCasts_S4x4096x2048_S16384x2048 := by
  show StableHlo.after hostOps0 (fun b => m (c, b)) (Proc.devRef .tc main_v2) = _
  after_results
  rfl

theorem rsRows_eq (c : Dev nD) :
    rsRows m c = shapeCast S16384x1 (m ((c : Thread nD τ).loc main_arg3)) shapeCasts_S4x4096x1_S16384x1 := by
  show StableHlo.after hostOps0 (fun b => m (c, b)) (Proc.devRef .tc main_v4) = _
  after_results
  rfl

theorem muRows_eq (c : Dev nD) :
    muRows m c = shapeCast S16384x1 (m ((c : Thread nD τ).loc main_arg4)) shapeCasts_S4x4096x1_S16384x1 := by
  show StableHlo.after hostOps0 (fun b => m (c, b)) (Proc.devRef .tc main_v5) = _
  after_results
  rfl

theorem dsRows_eq (c : Dev nD) :
    dsRows m c = shapeCast S16384x2048 (m ((c : Thread nD τ).loc main_arg6)) shapeCasts_S4x4096x2048_S16384x2048 := by
  show StableHlo.after hostOps0 (fun b => m (c, b)) (Proc.devRef .tc main_v3) = _
  after_results
  rfl

theorem gaVec_eq (c : Dev nD) : gaVec m c = m ((c : Thread nD τ).loc main_arg5) := V_main_arg5 m c

end Cert.KernelIdeal.Blocks

end
-- ==== Proof.KernelPoints.lean ====
/-
  The kernel's three results, point by point: the block of the input gradient a point writes back is the row
  formula over the point's tile of rows; each parameter gradient's accumulator, zeroed at the first point and
  updated at every point, holds after point `n` the zero plus the tiles `0 … n`, so after the last point the
  whole sum.
-/
import proofs.«161830_j60713657697040_1_alg».proof.Proof.Pieces
import proofs.«161830_j60713657697040_1_alg».proof.Proof.Payload
import proofs.«161830_j60713657697040_1_alg».proof.Proof.Blocks
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The results over rows, of the arrays the region finds -/

abbrev gx2 (c : Dev nD) : LnBwd.S2.Idx → EReal :=
  LnBwd.gradX2 (dyRows m c) (x1Rows m c) (x2Rows m c) (rsRows m c) (muRows m c) (gaVec m c) (dsRows m c)
abbrev gg2 (c : Dev nD) : LnBwd.S1.Idx → EReal :=
  LnBwd.gradGamma2 (dyRows m c) (x1Rows m c) (x2Rows m c) (rsRows m c) (muRows m c)
abbrev gb2 (c : Dev nD) : LnBwd.S1.Idx → EReal := LnBwd.gradBeta2 (dyRows m c)

/-- Tile `t`'s addend to the scale's gradient. -/
abbrev gammaT (c : Dev nD) (t : Fin 64) (h : Fin 2048) : EReal :=
  LnBwd.gammaTile (dyRows m c) (x1Rows m c) (x2Rows m c) (rsRows m c) (muRows m c) t h
/-- Tile `t`'s addend to the shift's gradient. -/
abbrev betaT (c : Dev nD) (t : Fin 64) (h : Fin 2048) : EReal := LnBwd.betaTile (dyRows m c) t h

/-- One of the points `0 … n`, as a tile number. -/
abbrev upTo (n : ℕ) (hn : n < cfg0.N) (s : Fin (n + 1)) : Fin 64 :=
  ⟨s.val, lt_of_lt_of_le s.isLt (by have := lt_of_lt_of_eq hn (show cfg0.N = 64 from N_0); omega)⟩

/-- The points `0 … n` with `n = 63` are all 64 tiles. -/
theorem sum_upTo (f : Fin 64 → EReal) (n : ℕ) (hn : n < cfg0.N) (h63 : n = 63) :
    ∑ s : Fin (n + 1), f (upTo n hn s) = ∑ s : Fin 64, f s := by
  subst h63
  rfl

/-! ## A block's row is its array's row -/

theorem row_dy (c : Dev nD) (t : Fin cfg0.N) (q : Fin 256) :
    (fun k : Fin 2048 => dyBlk m c t (ix2 q k)) = LnBwd.row2 (dyRows m c) (LnBwd.tileRow (tile t) q) :=
  funext fun k => dyBlk_apply m c t q k
theorem row_x1 (c : Dev nD) (t : Fin cfg0.N) (q : Fin 256) :
    (fun k : Fin 2048 => x1Blk m c t (ix2 q k)) = LnBwd.row2 (x1Rows m c) (LnBwd.tileRow (tile t) q) :=
  funext fun k => x1Blk_apply m c t q k
theorem row_x2 (c : Dev nD) (t : Fin cfg0.N) (q : Fin 256) :
    (fun k : Fin 2048 => x2Blk m c t (ix2 q k)) = LnBwd.row2 (x2Rows m c) (LnBwd.tileRow (tile t) q) :=
  funext fun k => x2Blk_apply m c t q k
theorem row_ds (c : Dev nD) (t : Fin cfg0.N) (q : Fin 256) :
    (fun k : Fin 2048 => dsBlk m c t (ix2 q k)) = LnBwd.row2 (dsRows m c) (LnBwd.tileRow (tile t) q) :=
  funext fun k => dsBlk_apply m c t q k
theorem lanes_ga (c : Dev nD) (t : Fin cfg0.N) :
    (fun k : Fin 2048 => gaBlk m c t (ix1 k)) = LnBwd.lanes (gaVec m c) :=
  funext fun k => gaBlk_apply m c t k
theorem stat_rs (c : Dev nD) (t : Fin cfg0.N) (q : Fin 256) :
    rsBlk m c t (ix2 q (0 : Fin 1)) = LnBwd.stat2 (rsRows m c) (LnBwd.tileRow (tile t) q) := rsBlk_apply m c t q 0
theorem stat_mu (c : Dev nD) (t : Fin cfg0.N) (q : Fin 256) :
    muBlk m c t (ix2 q (0 : Fin 1)) = LnBwd.stat2 (muRows m c) (LnBwd.tileRow (tile t) q) := muBlk_apply m c t q 0

/-! ## The input gradient, point by point -/

/-- The block of the input gradient point `t` leaves, at row `q` and feature `h`: the row formula at row `256·t + q`. -/
theorem gx_at (c : Dev nD) (t : Fin cfg0.N) (q : Fin 256) (h : Fin 2048) :
    (outsAt0 m c t.val t.isLt).1 (ix2 q h) = gx2 m c (ix2 (LnBwd.tileRow (tile t) q) h) := by
  have key : ∀ P : Vec Ideal S256x2048 .f32, P = k0_pay1 (F := Ideal) (k0_pay7 (rsBlk m c t)) (k0_pay8 (dyBlk m c t) (gaBlk m c t)) (k0_pay9 (x1Blk m c t) (x2Blk m c t) (muBlk m c t))
      (k0_pay10 (dyBlk m c t) (x1Blk m c t) (x2Blk m c t) (rsBlk m c t) (muBlk m c t) (gaBlk m c t)) (k0_pay11 (x1Blk m c t) (x2Blk m c t) (muBlk m c t))
      (k0_pay12 (dyBlk m c t) (rsBlk m c t) (gaBlk m c t)) (k0_pay13 (dyBlk m c t) (x1Blk m c t) (x2Blk m c t) (rsBlk m c t) (muBlk m c t) (gaBlk m c t)) (dsBlk m c t) →
      P (ix2 q h) = gx2 m c (ix2 (LnBwd.tileRow (tile t) q) h) := by
    intro P hP
    rw [hP]
    refine (Payload.gradX_apply (dyBlk m c t) (x1Blk m c t) (x2Blk m c t) (dsBlk m c t) (rsBlk m c t) (muBlk m c t) (gaBlk m c t) q h).trans ?_
    rw [row_dy, row_x1, row_x2, row_ds, lanes_ga, stat_rs, stat_mu]
    exact (LnBwd.gradX2_apply _ _ _ _ _ _ _ _ h).symm
  by_cases h0 : t.val % 64 = 0
  · refine key _ ?_
    rw [outsAt0_A m c t h0]
    dsimp only
    exact Pieces.gx_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (dyBlk m c t) (x1Blk m c t) (x2Blk m c t) (rsBlk m c t) (muBlk m c t) (gaBlk m c t) (dsBlk m c t) ((hcond0_0 t).mpr h0)
  · refine key _ ?_
    rw [outsAt0_B m c t h0]
    dsimp only
    exact Pieces.gx_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (dyBlk m c t) (x1Blk m c t) (x2Blk m c t) (rsBlk m c t) (muBlk m c t) (gaBlk m c t) (dsBlk m c t) (fun hc => h0 ((hcond0_0 t).mp hc)) _ _

/-- The same at any index of the block. -/
theorem gx_block (c : Dev nD) (t : Fin cfg0.N) (j : S256x2048.Idx) :
    (outsAt0 m c t.val t.isLt).1 j
      = gx2 m c (ix2 (LnBwd.tileRow (tile t) ⟨(j 0).val, (j 0).isLt⟩) ⟨(j 1).val, (j 1).isLt⟩) := by
  obtain ⟨q, h, rfl⟩ : ∃ (q : Fin 256) (h : Fin 2048), j = ix2 q h := ⟨_, _, eq_ix2 j⟩
  exact gx_at m c t q h

/-! ## The two accumulators, point by point -/

/-- One point's update of the scale's accumulator: what it held plus the point's tile. -/
theorem gamma_step (c : Dev nD) (t : Fin cfg0.N) (acc : Vec Ideal S2048 .f32) (h : Fin 2048) :
    k0_pay2 (F := Ideal) (k0_pay6 (dyBlk m c t)) (k0_pay7 (rsBlk m c t)) (k0_pay9 (x1Blk m c t) (x2Blk m c t) (muBlk m c t)) acc (ix1 h) = acc (ix1 h) + gammaT m c (tile t) h := by
  refine (Payload.gamma_apply (dyBlk m c t) (x1Blk m c t) (x2Blk m c t) (rsBlk m c t) (muBlk m c t) acc h).trans ?_
  refine congrArg (acc (ix1 h) + ·) ?_
  refine Finset.sum_congr rfl fun q _ => ?_
  rw [row_dy, row_x1, row_x2, stat_rs, stat_mu]

/-- After point `n` the scale's accumulator holds the zero it was reset to plus the tiles of points `0 … n`. -/
theorem gamma_at (c : Dev nD) : ∀ (n : ℕ) (hn : n < cfg0.N) (h : Fin 2048),
    (outsAt0 m c n hn).2.1 (ix1 h) = LnBwd.zeroWord + ∑ s : Fin (n + 1), gammaT m c (upTo n hn s) h
  | 0, hn, h => by
    have hA : (outsAt0 m c 0 hn).2.1 = k0_pay2 (F := Ideal) (k0_pay6 (dyBlk m c ⟨0, hn⟩)) (k0_pay7 (rsBlk m c ⟨0, hn⟩)) (k0_pay9 (x1Blk m c ⟨0, hn⟩) (x2Blk m c ⟨0, hn⟩) (muBlk m c ⟨0, hn⟩)) (k0_pay4 (F := Ideal)) := by
      show (outsAt0 m c (⟨0, hn⟩ : Fin cfg0.N).val (⟨0, hn⟩ : Fin cfg0.N).isLt).2.1 = _
      rw [outsAt0_A m c ⟨0, hn⟩ rfl]
      dsimp only
      exact Pieces.gamma_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (dyBlk m c ⟨0, hn⟩) (x1Blk m c ⟨0, hn⟩) (x2Blk m c ⟨0, hn⟩) (rsBlk m c ⟨0, hn⟩) (muBlk m c ⟨0, hn⟩) (gaBlk m c ⟨0, hn⟩) (dsBlk m c ⟨0, hn⟩) ((hcond0_0 ⟨0, hn⟩).mpr rfl)
    rw [hA]
    refine (gamma_step m c ⟨0, hn⟩ _ h).trans ?_
    rw [Fin.sum_univ_one]
    rfl
  | n + 1, hn, h => by
    have hN : n + 1 < 64 := lt_of_lt_of_eq hn (show cfg0.N = 64 from N_0)
    have hB : ¬(⟨n + 1, hn⟩ : Fin cfg0.N).val % 64 = 0 := by dsimp only; omega
    have hS : (outsAt0 m c (n + 1) hn).2.1 = k0_pay2 (F := Ideal) (k0_pay6 (dyBlk m c ⟨n + 1, hn⟩)) (k0_pay7 (rsBlk m c ⟨n + 1, hn⟩)) (k0_pay9 (x1Blk m c ⟨n + 1, hn⟩) (x2Blk m c ⟨n + 1, hn⟩) (muBlk m c ⟨n + 1, hn⟩)) (outsAt0 m c n (Nat.lt_of_succ_lt hn)).2.1 := by
      show (outsAt0 m c (⟨n + 1, hn⟩ : Fin cfg0.N).val (⟨n + 1, hn⟩ : Fin cfg0.N).isLt).2.1 = _
      rw [outsAt0_B m c ⟨n + 1, hn⟩ hB]
      dsimp only
      exact Pieces.gamma_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (dyBlk m c ⟨n + 1, hn⟩) (x1Blk m c ⟨n + 1, hn⟩) (x2Blk m c ⟨n + 1, hn⟩) (rsBlk m c ⟨n + 1, hn⟩) (muBlk m c ⟨n + 1, hn⟩) (gaBlk m c ⟨n + 1, hn⟩) (dsBlk m c ⟨n + 1, hn⟩) (fun hc => hB ((hcond0_0 ⟨n + 1, hn⟩).mp hc)) _ _
    rw [hS]
    refine (gamma_step m c ⟨n + 1, hn⟩ _ h).trans ?_
    rw [gamma_at c n (Nat.lt_of_succ_lt hn) h, add_assoc]
    refine congrArg (LnBwd.zeroWord + ·) ?_
    exact (Fin.sum_univ_castSucc (fun s : Fin (n + 1 + 1) => gammaT m c (upTo (n + 1) hn s) h)).symm

/-- After the last point the scale's accumulator is the whole sum. -/
theorem gamma_last (c : Dev nD) (t : Fin cfg0.N) (h63 : t.val = 63) (j : S2048.Idx) :
    (outsAt0 m c t.val t.isLt).2.1 j = gg2 m c j := by
  obtain ⟨h, rfl⟩ : ∃ h : Fin 2048, j = ix1 h := ⟨_, eq_ix1 j⟩
  refine (gamma_at m c t.val t.isLt h).trans ?_
  refine (congrArg (LnBwd.zeroWord + ·) (sum_upTo (fun s => gammaT m c s h) t.val t.isLt h63)).trans ?_
  exact (LnBwd.gradGamma2_apply _ _ _ _ _ h).symm

/-- One point's update of the shift's accumulator: what it held plus the point's tile. -/
theorem beta_step (c : Dev nD) (t : Fin cfg0.N) (acc : Vec Ideal S2048 .f32) (h : Fin 2048) :
    k0_pay3 (F := Ideal) (k0_pay6 (dyBlk m c t)) acc (ix1 h) = acc (ix1 h) + betaT m c (tile t) h := by
  refine (Payload.beta_apply (dyBlk m c t) acc h).trans ?_
  refine congrArg (acc (ix1 h) + ·) ?_
  refine Finset.sum_congr rfl fun q _ => ?_
  exact dyBlk_apply m c t q h

/-- After point `n` the shift's accumulator holds the zero it was reset to plus the tiles of points `0 … n`. -/
theorem beta_at (c : Dev nD) : ∀ (n : ℕ) (hn : n < cfg0.N) (h : Fin 2048),
    (outsAt0 m c n hn).2.2 (ix1 h) = LnBwd.zeroWord + ∑ s : Fin (n + 1), betaT m c (upTo n hn s) h
  | 0, hn, h => by
    have hA : (outsAt0 m c 0 hn).2.2 = k0_pay3 (F := Ideal) (k0_pay6 (dyBlk m c ⟨0, hn⟩)) (k0_pay5 (F := Ideal)) := by
      show (outsAt0 m c (⟨0, hn⟩ : Fin cfg0.N).val (⟨0, hn⟩ : Fin cfg0.N).isLt).2.2 = _
      rw [outsAt0_A m c ⟨0, hn⟩ rfl]
      dsimp only
      exact Pieces.beta_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (dyBlk m c ⟨0, hn⟩) (x1Blk m c ⟨0, hn⟩) (x2Blk m c ⟨0, hn⟩) (rsBlk m c ⟨0, hn⟩) (muBlk m c ⟨0, hn⟩) (gaBlk m c ⟨0, hn⟩) (dsBlk m c ⟨0, hn⟩) ((hcond0_0 ⟨0, hn⟩).mpr rfl)
    rw [hA]
    refine (beta_step m c ⟨0, hn⟩ _ h).trans ?_
    rw [Fin.sum_univ_one]
    rfl
  | n + 1, hn, h => by
    have hN : n + 1 < 64 := lt_of_lt_of_eq hn (show cfg0.N = 64 from N_0)
    have hB : ¬(⟨n + 1, hn⟩ : Fin cfg0.N).val % 64 = 0 := by dsimp only; omega
    have hS : (outsAt0 m c (n + 1) hn).2.2 = k0_pay3 (F := Ideal) (k0_pay6 (dyBlk m c ⟨n + 1, hn⟩)) (outsAt0 m c n (Nat.lt_of_succ_lt hn)).2.2 := by
      show (outsAt0 m c (⟨n + 1, hn⟩ : Fin cfg0.N).val (⟨n + 1, hn⟩ : Fin cfg0.N).isLt).2.2 = _
      rw [outsAt0_B m c ⟨n + 1, hn⟩ hB]
      dsimp only
      exact Pieces.beta_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (dyBlk m c ⟨n + 1, hn⟩) (x1Blk m c ⟨n + 1, hn⟩) (x2Blk m c ⟨n + 1, hn⟩) (rsBlk m c ⟨n + 1, hn⟩) (muBlk m c ⟨n + 1, hn⟩) (gaBlk m c ⟨n + 1, hn⟩) (dsBlk m c ⟨n + 1, hn⟩) (fun hc => hB ((hcond0_0 ⟨n + 1, hn⟩).mp hc)) _ _
    rw [hS]
    refine (beta_step m c ⟨n + 1, hn⟩ _ h).trans ?_
    rw [beta_at c n (Nat.lt_of_succ_lt hn) h, add_assoc]
    refine congrArg (LnBwd.zeroWord + ·) ?_
    exact (Fin.sum_univ_castSucc (fun s : Fin (n + 1 + 1) => betaT m c (upTo (n + 1) hn s) h)).symm

/-- After the last point the shift's accumulator is the whole sum. -/
theorem beta_last (c : Dev nD) (t : Fin cfg0.N) (h63 : t.val = 63) (j : S2048.Idx) :
    (outsAt0 m c t.val t.isLt).2.2 j = gb2 m c j := by
  obtain ⟨h, rfl⟩ : ∃ h : Fin 2048, j = ix1 h := ⟨_, eq_ix1 j⟩
  refine (beta_at m c t.val t.isLt h).trans ?_
  refine (congrArg (LnBwd.zeroWord + ·) (sum_upTo (fun s => betaT m c s h) t.val t.isLt h63)).trans ?_
  exact (LnBwd.gradBeta2_apply _ h).symm

end Cert.KernelIdeal.KValue

end
-- ==== Proof.Reshape.lean ====
/-
  The kernel sees its arrays as 16384 rows; the reference sees (batch, position). A reshape keeps the row-major
  position, so row `4096·b + s` of the reshaped array is row (b, s) of the original, and the three results stated
  over rows are the three results stated over (batch, position): the input gradient entry by entry, the two
  parameter gradients because 64 tiles of 256 rows and 4 batches of 4096 positions are the same 16384 rows.
-/
import proofs.«161830_j60713657697040_1_alg».proof.Proof.RowMath
import Idealize.ShloMosaic.Lib.Pipeline.Value

noncomputable section

open scoped BigOperators

namespace LnBwd

open Idealize.ShloMosaic Idealize.ShloMosaic.ValueIdx

/-- Row `4096·b + s`. -/
def batchRow (b : Fin 4) (s : Fin 4096) : Fin 16384 := ⟨4096 * b.val + s.val, by have := b.isLt; have := s.isLt; omega⟩

theorem row2_reshape (X : S3.Idx → EReal) (h : S3.ShapeCasts S2) (b : Fin 4) (s : Fin 4096) :
    row2 (shapeCast S2 X h) (batchRow b s) = row3 X b s := by
  funext k
  show shapeCast S2 X h (ix2 (batchRow b s) k) = X (ix3 b s k)
  refine shapeCast_apply X h (ix2 (batchRow b s) k) (ix3 b s k) ?_
  rw [Shape.rowMajor_val_three, Shape.rowMajor_val_two]
  show (b.val * 4096 + s.val) * 2048 + k.val = (4096 * b.val + s.val) * 2048 + k.val
  omega

theorem stat2_reshape (R : S3c.Idx → EReal) (h : S3c.ShapeCasts S2c) (b : Fin 4) (s : Fin 4096) :
    stat2 (shapeCast S2c R h) (batchRow b s) = stat3 R b s := by
  show shapeCast S2c R h (ix2 (batchRow b s) (0 : Fin 1)) = R (ix3 b s (0 : Fin 1))
  refine shapeCast_apply R h (ix2 (batchRow b s) (0 : Fin 1)) (ix3 b s (0 : Fin 1)) ?_
  rw [Shape.rowMajor_val_three, Shape.rowMajor_val_two]
  show (b.val * 4096 + s.val) * 1 + 0 = (4096 * b.val + s.val) * 1 + 0
  omega

theorem gradX_reshape (dy x1 x2 : S3.Idx → EReal) (rs mu : S3c.Idx → EReal) (ga : S1.Idx → EReal) (ds : S3.Idx → EReal)
    (h32 : S3.ShapeCasts S2) (hc : S3c.ShapeCasts S2c) (h23 : S2.ShapeCasts S3) :
    shapeCast S3 (gradX2 (shapeCast S2 dy h32) (shapeCast S2 x1 h32) (shapeCast S2 x2 h32) (shapeCast S2c rs hc)
        (shapeCast S2c mu hc) ga (shapeCast S2 ds h32)) h23
      = gradX3 dy x1 x2 rs mu ga ds := by
  funext i
  obtain ⟨b, s, f, rfl⟩ : ∃ (b : Fin 4) (s : Fin 4096) (f : Fin 2048), i = ix3 b s f := ⟨_, _, _, eq_ix3 i⟩
  -- entry (b, s, f) of the cast back is entry (4096·b + s, f) of the array of rows
  refine (shapeCast_apply _ h23 (ix3 b s f) (ix2 (batchRow b s) f) ?_).trans ?_
  · rw [Shape.rowMajor_val_three, Shape.rowMajor_val_two]
    show (4096 * b.val + s.val) * 2048 + f.val = (b.val * 4096 + s.val) * 2048 + f.val
    omega
  rw [gradX2_apply, gradX3_apply, row2_reshape, row2_reshape, row2_reshape, row2_reshape, stat2_reshape, stat2_reshape]

theorem gradGamma_reshape (dy x1 x2 : S3.Idx → EReal) (rs mu : S3c.Idx → EReal)
    (h32 : S3.ShapeCasts S2) (hc : S3c.ShapeCasts S2c) :
    gradGamma2 (shapeCast S2 dy h32) (shapeCast S2 x1 h32) (shapeCast S2 x2 h32) (shapeCast S2c rs hc) (shapeCast S2c mu hc)
      = gradGamma3 dy x1 x2 rs mu := by
  funext j
  obtain ⟨f, rfl⟩ : ∃ f : Fin 2048, j = ix1 f := ⟨_, eq_ix1 j⟩
  rw [gradGamma2_apply, gradGamma3_apply]
  refine congrArg (zeroWord + ·) ?_
  unfold gammaTile
  -- the 64 tiles of 256 rows are the 4 batches of 4096 positions
  refine (sum_tiles_eq_sum_batches (fun r => gammaTerm (row2 (shapeCast S2 dy h32) r) (row2 (shapeCast S2 x1 h32) r)
    (row2 (shapeCast S2 x2 h32) r) (stat2 (shapeCast S2c rs hc) r) (stat2 (shapeCast S2c mu hc) r) f)).trans ?_
  refine Finset.sum_congr rfl fun b _ => Finset.sum_congr rfl fun s _ => ?_
  show gammaTerm (row2 (shapeCast S2 dy h32) (batchRow b s)) (row2 (shapeCast S2 x1 h32) (batchRow b s))
    (row2 (shapeCast S2 x2 h32) (batchRow b s)) (stat2 (shapeCast S2c rs hc) (batchRow b s))
    (stat2 (shapeCast S2c mu hc) (batchRow b s)) f = _
  rw [row2_reshape, row2_reshape, row2_reshape, stat2_reshape, stat2_reshape]

theorem gradBeta_reshape (dy : S3.Idx → EReal) (h32 : S3.ShapeCasts S2) :
    gradBeta2 (shapeCast S2 dy h32) = gradBeta3 dy := by
  funext j
  obtain ⟨f, rfl⟩ : ∃ f : Fin 2048, j = ix1 f := ⟨_, eq_ix1 j⟩
  rw [gradBeta2_apply, gradBeta3_apply]
  refine congrArg (zeroWord + ·) ?_
  unfold betaTile
  refine (sum_tiles_eq_sum_batches (fun r => row2 (shapeCast S2 dy h32) r f)).trans ?_
  refine Finset.sum_congr rfl fun b _ => Finset.sum_congr rfl fun s _ => ?_
  show row2 (shapeCast S2 dy h32) (batchRow b s) f = _
  rw [row2_reshape]

end LnBwd

end
-- ==== Proof.KernelArrays.lean ====
/-
  From the points to the arrays. The input gradient's 64 blocks of 256 rows tile its array, so the array ends at
  the row formula over all 16384 rows; each parameter gradient's one block is its whole array, written back once
  after the last point, so it ends at the whole sum. The reshapes around the call turn rows back into
  (batch, position): the three results are the specification's, over the arguments.
-/
import proofs.«161830_j60713657697040_1_alg».proof.Proof.KernelPoints
import proofs.«161830_j60713657697040_1_alg».proof.Proof.Reshape
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the output blocks lie: decided once over the grid -/

theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 1) = 0 :=
  (by decide +kernel : ∀ t : Fin grid0.N, win0_8.index t (0 : Fin 1) = 0)
theorem idx9 : ∀ t : Fin cfg0.N, win0_9.index t (0 : Fin 1) = 0 :=
  (by decide +kernel : ∀ t : Fin grid0.N, win0_9.index t (0 : Fin 1) = 0)

/-! ## The input gradient's array: 64 blocks of 256 rows tile it -/

/-- What point `t` writes back is block `t` of the row formula over the whole array of rows. -/
theorem flushed7 (c : Dev nD) (t : Fin cfg0.N) :
    (dats m 0 c).flushed 7 t = ((cfg0.win 7).blk t).view.read (Elt Ideal) (gx2 m c) := by
  show (cfg0.win 7).cut (grid0.coords t) ((dats m 0 c).after 7 t) = _
  rw [after0_7]
  funext j
  show (outsAt0 m c t.val t.isLt).1 j = gx2 m c (((cfg0.win 7).blk t).view.emb j)
  refine (gx_block m c t j).trans (congrArg (gx2 m c) (funext fun a => Fin.ext ?_))
  match a with
  | ⟨0, _⟩ => show 256 * t.val + (j 0).val = win0_7.index t 0 * 256 + 1 * (j 0).val; rw [(idx7 t).1]; omega
  | ⟨1, _⟩ => show (j 1).val = win0_7.index t 1 * 2048 + 1 * (j 1).val; rw [(idx7 t).2]; omega

theorem mem_blk7 (t : Fin cfg0.N) (i : S16384x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v6_0).slice (win0_7.rect t)).set ↔ _
  rw [View.set_slice_whole, Rect.mem_set_unit]
  exact Iff.rfl

/-- Row `r` lies in the block of point `r / 256`. -/
theorem cover7 (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  obtain ⟨t, ht⟩ : ∃ t : Fin cfg0.N, t.val = (i 0).val / 256 :=
    ⟨⟨(i 0).val / 256, lt_of_lt_of_eq (by omega) (show cfg0.N = 64 from N_0).symm⟩, rfl⟩
  refine ⟨t, flush0_7 t, ?_⟩
  rw [mem_blk7]
  intro a
  match a with
  | ⟨0, _⟩ => show win0_7.index t 0 * 256 ≤ (i 0).val ∧ (i 0).val < win0_7.index t 0 * 256 + 256; rw [(idx7 t).1]; omega
  | ⟨1, _⟩ => show win0_7.index t 1 * 2048 ≤ (i 1).val ∧ (i 1).val < win0_7.index t 1 * 2048 + 2048; rw [(idx7 t).2]; omega

theorem final7 (c : Dev nD) : (dats m 0 c).arrAt 7 cfg0.N = gx2 m c :=
  (dats m 0 c).arrAt_eq_of_cover 7 (gx2 m c) (fun t _ => flushed7 m c t) cover7

/-! ## The two parameter gradients' arrays: one block, written back once -/

/-- The one write-back of the scale's gradient, at the last point, writes the whole sum. -/
theorem flushed8 (c : Dev nD) (t : Fin cfg0.N) (hf : (cfg0.win 8).flush t = true) :
    (dats m 0 c).flushed 8 t = ((cfg0.win 8).blk t).view.read (Elt Ideal) (gg2 m c) := by
  have hN := lt64 t
  have h63 : t.val = 63 := by have := (flush0_8 t).mp hf; omega
  show (cfg0.win 8).cut (grid0.coords t) ((dats m 0 c).after 8 t) = _
  rw [after0_8]
  funext j
  show (outsAt0 m c t.val t.isLt).2.1 j = gg2 m c (((cfg0.win 8).blk t).view.emb j)
  refine (gamma_last m c t h63 j).trans (congrArg (gg2 m c) (funext fun a => Fin.ext ?_))
  match a with
  | ⟨0, _⟩ => show (j 0).val = win0_8.index t 0 * 2048 + 1 * (j 0).val; rw [idx8 t]; omega

theorem mem_blk8 (t : Fin cfg0.N) (i : S2048.Idx) :
    i ∈ ((cfg0.win 8).blk t).view.set ↔ ∀ a : Fin 1, win0_8.index t a * S2048.size a ≤ (i a).val ∧ (i a).val < win0_8.index t a * S2048.size a + S2048.size a := by
  show i ∈ ((View.whole main_v6_1).slice (win0_8.rect t)).set ↔ _
  rw [View.set_slice_whole, Rect.mem_set_unit]
  exact Iff.rfl

/-- Its one block is the whole vector. -/
theorem cover8 (i : S2048.Idx) : ∃ t : Fin cfg0.N, (cfg0.win 8).flush t = true ∧ i ∈ ((cfg0.win 8).blk t).view.set := by
  have hi0 : (i 0).val < 2048 := (i 0).isLt
  obtain ⟨t, ht⟩ : ∃ t : Fin cfg0.N, t.val = 63 := ⟨⟨63, lt_of_lt_of_eq (by omega) (show cfg0.N = 64 from N_0).symm⟩, rfl⟩
  refine ⟨t, (flush0_8 t).mpr (by omega), ?_⟩
  rw [mem_blk8]
  intro a
  match a with
  | ⟨0, _⟩ => show win0_8.index t 0 * 2048 ≤ (i 0).val ∧ (i 0).val < win0_8.index t 0 * 2048 + 2048; rw [idx8 t]; omega

theorem final8 (c : Dev nD) : (dats m 0 c).arrAt 8 cfg0.N = gg2 m c :=
  (dats m 0 c).arrAt_eq_of_cover 8 (gg2 m c) (flushed8 m c) cover8

/-- The one write-back of the shift's gradient, at the last point, writes the whole sum. -/
theorem flushed9 (c : Dev nD) (t : Fin cfg0.N) (hf : (cfg0.win 9).flush t = true) :
    (dats m 0 c).flushed 9 t = ((cfg0.win 9).blk t).view.read (Elt Ideal) (gb2 m c) := by
  have hN := lt64 t
  have h63 : t.val = 63 := by have := (flush0_9 t).mp hf; omega
  show (cfg0.win 9).cut (grid0.coords t) ((dats m 0 c).after 9 t) = _
  rw [after0_9]
  funext j
  show (outsAt0 m c t.val t.isLt).2.2 j = gb2 m c (((cfg0.win 9).blk t).view.emb j)
  refine (beta_last m c t h63 j).trans (congrArg (gb2 m c) (funext fun a => Fin.ext ?_))
  match a with
  | ⟨0, _⟩ => show (j 0).val = win0_9.index t 0 * 2048 + 1 * (j 0).val; rw [idx9 t]; omega

theorem mem_blk9 (t : Fin cfg0.N) (i : S2048.Idx) :
    i ∈ ((cfg0.win 9).blk t).view.set ↔ ∀ a : Fin 1, win0_9.index t a * S2048.size a ≤ (i a).val ∧ (i a).val < win0_9.index t a * S2048.size a + S2048.size a := by
  show i ∈ ((View.whole main_v6_2).slice (win0_9.rect t)).set ↔ _
  rw [View.set_slice_whole, Rect.mem_set_unit]
  exact Iff.rfl

/-- Its one block is the whole vector. -/
theorem cover9 (i : S2048.Idx) : ∃ t : Fin cfg0.N, (cfg0.win 9).flush t = true ∧ i ∈ ((cfg0.win 9).blk t).view.set := by
  have hi0 : (i 0).val < 2048 := (i 0).isLt
  obtain ⟨t, ht⟩ : ∃ t : Fin cfg0.N, t.val = 63 := ⟨⟨63, lt_of_lt_of_eq (by omega) (show cfg0.N = 64 from N_0).symm⟩, rfl⟩
  refine ⟨t, (flush0_9 t).mpr (by omega), ?_⟩
  rw [mem_blk9]
  intro a
  match a with
  | ⟨0, _⟩ => show win0_9.index t 0 * 2048 ≤ (i 0).val ∧ (i 0).val < win0_9.index t 0 * 2048 + 2048; rw [idx9 t]; omega

theorem final9 (c : Dev nD) : (dats m 0 c).arrAt 9 cfg0.N = gb2 m c :=
  (dats m 0 c).arrAt_eq_of_cover 9 (gb2 m c) (flushed9 m c) cover9

/-! ## The results over the arguments -/

theorem gx_result (c : Dev nD) :
    shapeCast S4x4096x2048 (gx2 m c) shapeCasts_S16384x2048_S4x4096x2048
      = LnBwd.gradX3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show shapeCast S4x4096x2048 (LnBwd.gradX2 (dyRows m c) (x1Rows m c) (x2Rows m c) (rsRows m c) (muRows m c) (gaVec m c) (dsRows m c)) _ = _
  rw [dyRows_eq, x1Rows_eq, x2Rows_eq, rsRows_eq, muRows_eq, dsRows_eq, gaVec_eq]
  exact LnBwd.gradX_reshape _ _ _ _ _ _ _ _ _ _

theorem gg_result (c : Dev nD) : gg2 m c = LnBwd.gradGamma3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show LnBwd.gradGamma2 (dyRows m c) (x1Rows m c) (x2Rows m c) (rsRows m c) (muRows m c) = _
  rw [dyRows_eq, x1Rows_eq, x2Rows_eq, rsRows_eq, muRows_eq]
  exact LnBwd.gradGamma_reshape _ _ _ _ _ _ _

theorem gb_result (c : Dev nD) : gb2 m c = LnBwd.gradBeta3 (m ((c.tc : Thread nD τ).loc main_arg0)) := by
  show LnBwd.gradBeta2 (dyRows m c) = _
  rw [dyRows_eq]
  exact LnBwd.gradBeta_reshape _ _

/-- The reshape after the call, of the array of rows, is the input gradient over (batch, position, feature). -/
theorem tail7 (c : Dev nD) :
    Pipeline.afterTail₀ cfgs (dats m) 0 (V0 m) [hostOps1] c main_v7 = LnBwd.gradX3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = gx2 m c := (Pipeline.withArrays_arr spec0 launch0.win.arr_inj c _ _ 7).trans (final7 m c)
  show shapeCast S4x4096x2048 (Pipeline.withArrays (cfgs 0).spec c (V0 m c) (fun w => (dats m 0 c).arrAt w (cfgs 0).N)
    (Proc.devRef .tc main_v6_0)) shapeCasts_S16384x2048_S4x4096x2048 = _
  rw [e]
  exact gx_result m c

/-! ## The run, read -/

/-- Every weakly fair execution of the kernel's program ends with the input gradient at the row formula over
    (batch, position, feature), the two parameter gradients at the sums over every (batch, position), and the
    arguments as they were. -/
theorem run : θ_run defs (onTc (τ := τ) (main (F := Ideal))) ⟨m, fun _ => 0, ρ⟩ fun r => ∀ c : Dev nD,
      r.2.mem ((c.tc : Thread nD τ).loc main_v7) = LnBwd.gradX3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v6_1) = LnBwd.gradGamma3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = LnBwd.gradBeta3 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v7 (Pipeline.mem_restRefs_of main_v7 (by decide) (by decide))).trans (tail7 m c),
      ((h c).1 8).trans ((final8 m c).trans (gg_result m c)),
      ((h c).1 9).trans ((final9 m c).trans (gb_result m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference, read one operation at a time at an index, is the row formulas of RowMath over
  (batch, position, feature): its row sums start from the float zero, which adds nothing; its negation is the
  extended reals'; its two parameter gradients sum over the two leading axes at once.
-/
import proofs.«161830_j60713657697040_1_alg».proof.Proof.Gen.ReferenceIdeal.Read
import proofs.«161830_j60713657697040_1_alg».proof.Proof.RowMath

noncomputable section

open scoped BigOperators

namespace Cert.ReferenceIdeal.RefValue

open Cert.ReferenceIdeal Cert.ReferenceIdeal.Gen Idealize.ShloMosaic Idealize.ShloMosaic.TcCoe Idealize.ShloMosaic.ValueIdx

/-! ## Indices: a broadcast along the feature axis reads the row's entry; a row sum runs over the row -/

section Indices
variable (b : Fin 4) (s : Fin 4096) (h : Fin 2048)

private theorem idx_v1v2 : Read.idx_main_v1 (Read.idx_main_v2 (ix3 b s h)) = ix1 h :=
  funext fun a => Fin.ext (by match a with | ⟨0, _⟩ => rfl)
private theorem idx_v4 : Read.idx_main_v4 (ix3 b s h) = ix3 b s (0 : Fin 1) :=
  funext fun a => Fin.ext (by match a with | ⟨0, _⟩ => rfl | ⟨1, _⟩ => rfl | ⟨2, _⟩ => rfl)
private theorem idx_v11 : Read.idx_main_v11 (ix3 b s h) = ix3 b s (0 : Fin 1) :=
  funext fun a => Fin.ext (by match a with | ⟨0, _⟩ => rfl | ⟨1, _⟩ => rfl | ⟨2, _⟩ => rfl)
private theorem idx_v16 : Read.idx_main_v16 (ix3 b s h) = ix3 b s (0 : Fin 1) :=
  funext fun a => Fin.ext (by match a with | ⟨0, _⟩ => rfl | ⟨1, _⟩ => rfl | ⟨2, _⟩ => rfl)
private theorem idx_v26 : Read.idx_main_v26 (ix3 b s h) = ix3 b s (0 : Fin 1) :=
  funext fun a => Fin.ext (by match a with | ⟨0, _⟩ => rfl | ⟨1, _⟩ => rfl | ⟨2, _⟩ => rfl)
private theorem idx_v30 : Read.idx_main_v30 (ix3 b s h) = ix3 b s (0 : Fin 1) :=
  funext fun a => Fin.ext (by match a with | ⟨0, _⟩ => rfl | ⟨1, _⟩ => rfl | ⟨2, _⟩ => rfl)
private theorem idx_v35 : Read.idx_main_v35 (ix3 b s h) = ix3 b s (0 : Fin 1) :=
  funext fun a => Fin.ext (by match a with | ⟨0, _⟩ => rfl | ⟨1, _⟩ => rfl | ⟨2, _⟩ => rfl)
private theorem idx_v39 : Read.idx_main_v39 (ix3 b s h) = ix3 b s (0 : Fin 1) :=
  funext fun a => Fin.ext (by match a with | ⟨0, _⟩ => rfl | ⟨1, _⟩ => rfl | ⟨2, _⟩ => rfl)
private theorem idx_v13 : Read.idx_main_v13 (Read.idx_main_v14 (ix3 b s (0 : Fin 1))) h = ix3 b s h :=
  funext fun a => Fin.ext (by match a with | ⟨0, _⟩ => rfl | ⟨1, _⟩ => rfl | ⟨2, _⟩ => rfl)
private theorem idx_v18 : Read.idx_main_v18 (Read.idx_main_v19 (ix3 b s (0 : Fin 1))) h = ix3 b s h :=
  funext fun a => Fin.ext (by match a with | ⟨0, _⟩ => rfl | ⟨1, _⟩ => rfl | ⟨2, _⟩ => rfl)
private theorem idx_v22 : Read.idx_main_v22 (Read.idx_main_v23 (ix3 b s (0 : Fin 1))) h = ix3 b s h :=
  funext fun a => Fin.ext (by match a with | ⟨0, _⟩ => rfl | ⟨1, _⟩ => rfl | ⟨2, _⟩ => rfl)

end Indices

/-! ## The input gradient, stage by stage at (b, s, h) -/

section Stages
variable (x0 x1 x2 : (⟨S4x4096x2048, .f32⟩ : BufTy).Contents (Elt Ideal)) (x3 x4 : (⟨S4x4096x1, .f32⟩ : BufTy).Contents (Elt Ideal))
  (x5 : (⟨S2048, .f32⟩ : BufTy).Contents (Elt Ideal)) (b : Fin 4) (s : Fin 4096) (h : Fin 2048)

/-- The upstream gradient times the scale. -/
private theorem v3_at : Read.val_main_v3 (F := Ideal) x0 x5 (ix3 b s h) = LnBwd.scaled (LnBwd.row3 x0 b s) (LnBwd.lanes x5) h := by
  rw [Read.val_main_v3_apply, Read.val_main_v2_apply, Read.val_main_v1_apply, idx_v1v2]
  rfl

/-- The input less the row's mean. -/
private theorem v5_at : Read.val_main_v5 (F := Ideal) x1 x2 x4 (ix3 b s h)
    = LnBwd.centred (LnBwd.row3 x1 b s) (LnBwd.row3 x2 b s) (LnBwd.stat3 x4 b s) h := by
  rw [Read.val_main_v5_apply, Read.val_main_v0_apply, Read.val_main_v4_apply, idx_v4]
  rfl

/-- The cube of the reciprocal standard deviation. -/
private theorem v11_at : Read.val_main_v11 (F := Ideal) x3 (ix3 b s h)
    = (LnBwd.stat3 x3 b s * LnBwd.stat3 x3 b s) * LnBwd.stat3 x3 b s := by
  rw [Read.val_main_v11_apply, Read.val_main_v10_apply, Read.val_main_v9_apply, idx_v11]
  rfl

/-- The first row sum: the gradient with respect to the variance. -/
private theorem v14_at : Read.val_main_v14 (F := Ideal) x0 x1 x2 x3 x4 x5 (ix3 b s (0 : Fin 1))
    = LnBwd.gradVar (LnBwd.row3 x0 b s) (LnBwd.row3 x1 b s) (LnBwd.row3 x2 b s) (LnBwd.lanes x5) (LnBwd.stat3 x3 b s) (LnBwd.stat3 x4 b s) := by
  rw [Read.val_main_v14_apply, Read.val_main_v13_apply, Read.val_main_cst_0_apply, Ideal.ofBits_def, Ideal.ofBits_zero_f32, zero_add]
  unfold LnBwd.gradVar
  refine Finset.sum_congr rfl fun k _ => ?_
  rw [idx_v13, Read.val_main_v12_apply, Read.val_main_v8_apply, Read.val_main_v7_apply, Read.val_main_v6_apply,
    Read.val_main_cst_apply, v3_at, v5_at, v11_at]
  rfl

/-- The second row sum: the negated scaled gradient times the reciprocal standard deviation. -/
private theorem v19_at : Read.val_main_v19 (F := Ideal) x0 x3 x5 (ix3 b s (0 : Fin 1))
    = LnBwd.sumNegScaled (LnBwd.row3 x0 b s) (LnBwd.lanes x5) (LnBwd.stat3 x3 b s) := by
  rw [Read.val_main_v19_apply, Read.val_main_v18_apply, Read.val_main_cst_1_apply, Ideal.ofBits_def, Ideal.ofBits_zero_f32, zero_add]
  unfold LnBwd.sumNegScaled
  refine Finset.sum_congr rfl fun k _ => ?_
  rw [idx_v18, Read.val_main_v17_apply, Read.val_main_v15_apply, Read.val_main_v16_apply, idx_v16, v3_at]
  rfl

/-- The third row sum: the centred row. -/
private theorem v23_at : Read.val_main_v23 (F := Ideal) x1 x2 x4 (ix3 b s (0 : Fin 1))
    = LnBwd.sumCentred (LnBwd.row3 x1 b s) (LnBwd.row3 x2 b s) (LnBwd.stat3 x4 b s) := by
  rw [Read.val_main_v23_apply, Read.val_main_v22_apply, Read.val_main_cst_3_apply, Ideal.ofBits_def, Ideal.ofBits_zero_f32, zero_add]
  unfold LnBwd.sumCentred
  refine Finset.sum_congr rfl fun k _ => ?_
  rw [idx_v22, v5_at]

/-- The gradient with respect to the row's mean. -/
private theorem v25_at : Read.val_main_v25 (F := Ideal) x0 x1 x2 x3 x4 x5 (ix3 b s (0 : Fin 1))
    = LnBwd.gradMean (LnBwd.row3 x0 b s) (LnBwd.row3 x1 b s) (LnBwd.row3 x2 b s) (LnBwd.lanes x5) (LnBwd.stat3 x3 b s) (LnBwd.stat3 x4 b s) := by
  rw [Read.val_main_v25_apply, Read.val_main_v24_apply, Read.val_main_v21_apply, Read.val_main_v20_apply, Read.val_main_cst_2_apply,
    v19_at, v14_at, v23_at]
  rfl

end Stages

theorem gradX_eq (x0 x1 x2 : (⟨S4x4096x2048, .f32⟩ : BufTy).Contents (Elt Ideal)) (x3 x4 : (⟨S4x4096x1, .f32⟩ : BufTy).Contents (Elt Ideal))
    (x5 : (⟨S2048, .f32⟩ : BufTy).Contents (Elt Ideal)) (x6 : (⟨S4x4096x2048, .f32⟩ : BufTy).Contents (Elt Ideal)) :
    Read.val_main_v37 (F := Ideal) x0 x1 x2 x3 x4 x5 x6 = LnBwd.gradX3 x0 x1 x2 x3 x4 x5 x6 := by
  funext i
  obtain ⟨b, s, h, rfl⟩ : ∃ (b : Fin 4) (s : Fin 4096) (h : Fin 2048), i = ix3 b s h := ⟨i 0, i 1, i 2, eq_ix3 i⟩
  rw [LnBwd.gradX3_apply, Read.val_main_v37_apply, Read.val_main_v36_apply, Read.val_main_v32_apply, Read.val_main_v27_apply,
    Read.val_main_v26_apply, idx_v26, Read.val_main_v31_apply, Read.val_main_v30_apply, idx_v30, Read.val_main_v29_apply,
    Read.val_main_v28_apply, Read.val_main_cst_4_apply, Read.val_main_v35_apply, idx_v35, Read.val_main_v34_apply,
    Read.val_main_v33_apply, Read.val_main_cst_5_apply, v3_at, v5_at, v14_at, v25_at]
  rfl

/-! ## The two parameter gradients: a sum over every (batch, position) at one feature -/

/-- Dropping the two leading coordinates of (b, s, k) leaves the feature k. -/
private theorem feature_of_index (b : Fin 4) (s : Fin 4096) (k : Fin 2048) :
    reducesTo_S4x4096x2048_S2048_d0_1.drop (ix3 b s k) = ix1 k :=
  funext fun a => Fin.ext (by match a with | ⟨0, _⟩ => rfl)

/-- The indices at feature h, one for each (batch, position). -/
private def atFeature (h : Fin 2048) : Fin 4 × Fin 4096 ↪ S4x4096x2048.Idx :=
  ⟨fun p => ix3 p.1 p.2 h, fun p q e => Prod.ext (congrFun e 0) (congrFun e 1)⟩

/-- The indices that drop to feature h are exactly those. -/
private theorem indices_at_feature (h : Fin 2048) :
    Finset.univ.filter (fun i : S4x4096x2048.Idx => reducesTo_S4x4096x2048_S2048_d0_1.drop i = ix1 h)
      = Finset.univ.map (atFeature h) := by
  refine Finset.ext fun i => ?_
  obtain ⟨b, s, k, rfl⟩ : ∃ (b : Fin 4) (s : Fin 4096) (k : Fin 2048), i = ix3 b s k := ⟨i 0, i 1, i 2, eq_ix3 i⟩
  constructor
  · intro hi
    have e := (Finset.mem_filter.mp hi).2
    have hk : k = h := congrFun ((feature_of_index b s k).symm.trans e) 0
    subst hk
    exact Finset.mem_map.mpr ⟨(b, s), Finset.mem_univ _, rfl⟩
  · intro hi
    obtain ⟨p, -, e⟩ := Finset.mem_map.mp hi
    have hk : h = k := congrFun e 2
    subst hk
    exact Finset.mem_filter.mpr ⟨Finset.mem_univ _, feature_of_index b s _⟩

/-- So the sum over the two leading axes, at feature h, is the initial value plus the double sum over batch and position. -/
private theorem sum_over_batch_position (y : S4x4096x2048.Idx → EReal) (init : EReal) (h : Fin 2048) :
    Ideal.hostReduceAdd reducesTo_S4x4096x2048_S2048_d0_1 y init (ix1 h)
      = init + ∑ b : Fin 4, ∑ s : Fin 4096, y (ix3 b s h) := by
  unfold Ideal.hostReduceAdd
  rw [indices_at_feature h, Finset.sum_map, Fintype.sum_prod_type]
  rfl

theorem gradGamma_eq (x0 x1 x2 : (⟨S4x4096x2048, .f32⟩ : BufTy).Contents (Elt Ideal)) (x3 x4 : (⟨S4x4096x1, .f32⟩ : BufTy).Contents (Elt Ideal)) :
    Read.val_main_v41 (F := Ideal) x0 x1 x2 x3 x4 = LnBwd.gradGamma3 x0 x1 x2 x3 x4 := by
  funext j
  obtain ⟨h, rfl⟩ : ∃ h : Fin 2048, j = ix1 h := ⟨j 0, eq_ix1 j⟩
  rw [LnBwd.gradGamma3_apply]
  show Ideal.hostReduceAdd reducesTo_S4x4096x2048_S2048_d0_1 (Read.val_main_v40 (F := Ideal) x0 x1 x2 x3 x4)
    (Ideal.ofBits .f32 0x00000000#32) (ix1 h) = _
  rw [sum_over_batch_position]
  refine congrArg (_ + ·) (Finset.sum_congr rfl fun b _ => Finset.sum_congr rfl fun s _ => ?_)
  rw [Read.val_main_v40_apply, Read.val_main_v38_apply, Read.val_main_v39_apply, idx_v39, v5_at]
  rfl

theorem gradBeta_eq (x0 : (⟨S4x4096x2048, .f32⟩ : BufTy).Contents (Elt Ideal)) :
    Read.val_main_v42 (F := Ideal) x0 = LnBwd.gradBeta3 x0 := by
  funext j
  obtain ⟨h, rfl⟩ : ∃ h : Fin 2048, j = ix1 h := ⟨j 0, eq_ix1 j⟩
  rw [LnBwd.gradBeta3_apply]
  show Ideal.hostReduceAdd reducesTo_S4x4096x2048_S2048_d0_1 x0 (Ideal.ofBits .f32 0x00000000#32) (ix1 h) = _
  rw [sum_over_batch_position]
  rfl

end Cert.ReferenceIdeal.RefValue

end
-- ==== Proof.lean ====
/-
  Layer normalisation's backward pass over a feature axis of 2048, for 4 × 4096 rows: the kernel against the
  plain array program, on the extended reals.

  Both compute, for each row, the gradient with respect to the input from the row's two lane sums (the gradients
  with respect to its variance and its mean), and, summed over all 16384 rows, the gradients of the scale and of the
  shift. The kernel walks the rows in 64 tiles of 256, writes each tile's block of the input gradient back, and
  keeps the two parameter gradients in accumulators it zeroes at the first tile; the array program sums over
  (batch, position) at once. Operation by operation the row arithmetic is the same on both sides, with the same
  float words for −½, −2/d, 2/d and 1/d; what differs is that the array program's sums start from a float zero,
  that it negates where the kernel subtracts from zero, and the grouping of the sum over rows. On the extended
  reals the first two are `0 + x = x` and `0 − x = −x`, and the third is associativity and commutativity of `+`:
  64 tiles of 256 rows and 4 batches of 4096 positions are the same 16384 rows. None of this needs the inputs
  finite, so the precondition is never opened. The idealisation rewrote nothing, so `preserves` is `True`.
-/
import proofs.«161830_j60713657697040_1_alg».proof.Defs
import proofs.«161830_j60713657697040_1_alg».proof.Proof.Gen.Kernel
import proofs.«161830_j60713657697040_1_alg».proof.Proof.Gen.Kernel.Skeleton
import proofs.«161830_j60713657697040_1_alg».proof.Proof.Gen.Kernel.Launch
import proofs.«161830_j60713657697040_1_alg».proof.Proof.Gen.Kernel.Points
import proofs.«161830_j60713657697040_1_alg».proof.Proof.Gen.Kernel.Frame
import proofs.«161830_j60713657697040_1_alg».proof.Proof.Gen.KernelIdeal
import proofs.«161830_j60713657697040_1_alg».proof.Proof.Gen.KernelIdeal.Skeleton
import proofs.«161830_j60713657697040_1_alg».proof.Proof.Gen.KernelIdeal.Launch
import proofs.«161830_j60713657697040_1_alg».proof.Proof.Gen.KernelIdeal.Points
import proofs.«161830_j60713657697040_1_alg».proof.Proof.Gen.KernelIdeal.Frame
import proofs.«161830_j60713657697040_1_alg».proof.Proof.Gen.ReferenceIdeal
import proofs.«161830_j60713657697040_1_alg».proof.Proof.Gen.Pre_finite_inputs
import proofs.«161830_j60713657697040_1_alg».proof.Proof.Gen.ReferenceIdeal.Run
import proofs.«161830_j60713657697040_1_alg».proof.Proof.Gen.ReferenceIdeal.Read
import proofs.«161830_j60713657697040_1_alg».proof.Proof.KernelArrays
import proofs.«161830_j60713657697040_1_alg».proof.Proof.RefValue
import Idealize.ShloMosaic.Adequacy
import Idealize.ShloMosaic.Init

noncomputable section

namespace Cert.Proof

open Idealize.ShloMosaic Idealize.SL.Sem Cert.Kernel

variable [hKernel : Cert.Kernel.Facts] [hKernelIdeal : Cert.KernelIdeal.Facts] [hReferenceIdeal : Cert.ReferenceIdeal.Facts]
  [hPre_finite_inputs : Cert.Pre_finite_inputs.Facts]

/-- The array program runs and leaves its arguments alone: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From arguments that agree, both programs end with the input gradient at the row formula over
    (batch, position, feature) and the two parameter gradients at the sums over every (batch, position). -/
theorem algebraic : Cert.algebraic_KernelIdeal_ReferenceIdeal := by
  intro m ρ m' ρ' _ hagree
  refine ⟨fun c => LnBwd.gradX3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => LnBwd.gradGamma3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => LnBwd.gradBeta3 (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ?_) (Cert.ReferenceIdeal.Value.run (F := Ideal) m' ρ')
  obtain ⟨h37, h41, h42, hargs⟩ := h c
  obtain ⟨a0, a1, a2, a3, a4, a5, a6⟩ := hagree c
  refine ⟨?_, ?_, ?_, hargs⟩
  · rw [h37, Cert.ReferenceIdeal.Read.val_main_v37_eq, Cert.ReferenceIdeal.RefValue.gradX_eq, a0, a1, a2, a3, a4, a5, a6]
  · rw [h41, Cert.ReferenceIdeal.Read.val_main_v41_eq, Cert.ReferenceIdeal.RefValue.gradGamma_eq, a0, a1, a2, a3, a4]
  · rw [h42, Cert.ReferenceIdeal.Read.val_main_v42_eq, Cert.ReferenceIdeal.RefValue.gradBeta_eq, a0]

end Cert.Proof

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
